-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v23)) (v1 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_v25) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v78) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S500000x4 : Shape := ⟨2, ![500000, 4]⟩
abbrev S64x128 : Shape := ⟨2, ![64, 128]⟩
abbrev S128 : Shape := ⟨1, ![128]⟩
abbrev S128x2 : Shape := ⟨2, ![128, 2]⟩
abbrev S2 : Shape := ⟨1, ![2]⟩
abbrev S_ : Shape := ⟨0, ![]⟩
abbrev S500000x2 : Shape := ⟨2, ![500000, 2]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_
  slices_S500000x4_S500000x2_0_0 : S500000x4.Slices ![0, 0] S500000x2
  bcast_S_S500000x2 : S_.BroadcastsInDim S500000x2 (![] : Fin 0 → Fin S500000x2.rank)
  reducesTo_S500000x2_S_d0_1 : S500000x2.ReducesTo [0, 1] S_

variable [Facts]

def fn_part2 {F : FTy → Type} [FloatOps F] (main_arg2 : IVec S500000x4 32) (main_v28 : IVec S_ 1) (main_v31 : IVec S500000x2 1) (main_v33 : IVec S500000x2 1) : IVec S_ 1 :=
  let main_v34 : IVec S500000x2 1 := andi main_v31 main_v33
  let main_c_12 : IVec S_ 1 := constantI S_ 1 1#1
  let main_v35 : IVec S_ 1 := (fun x v => Host.reduce IntOp.andi x v reducesTo_S500000x2_S_d0_1 h_S_) main_v34 main_c_12
  let main_v36 : IVec S_ 1 := andi main_v28 main_v35
  let main_v37 : IVec S500000x2 32 := (extractStridedSlice S500000x2 ![0, 0] · slices_S500000x4_S500000x2_0_0) main_arg2
  let main_c_13 : IVec S_ 32 := constantI S_ 32 0#32
  let main_v38 : IVec S500000x2 32 := broadcastInDim S500000x2 ![] bcast_S_S500000x2 main_c_13
  let main_v39 : IVec S500000x2 1 := cmpi .sge main_v37 main_v38
  let main_c_14 : IVec S_ 32 := constantI S_ 32 100000#32
  let main_v40 : IVec S500000x2 32 := broadcastInDim S500000x2 ![] bcast_S_S500000x2 main_c_14
  let main_v41 : IVec S500000x2 1 := cmpi .slt main_v37 main_v40
  let main_v42 : IVec S500000x2 1 := andi main_v39 main_v41
  let main_c_15 : IVec S_ 1 := constantI S_ 1 1#1
  let main_v43 : IVec S_ 1 := (fun x v => Host.reduce IntOp.andi x v reducesTo_S500000x2_S_d0_1 h_S_) main_v42 main_c_15
  let main_v44 : IVec S_ 1 := andi main_v36 main_v43
  main_v44

def fn_part1 {F : FTy → Type} [FloatOps F] (main_arg1 : IVec S500000x4 32) (main_arg2 : IVec S500000x4 32) (main_arg6 : FVec F S128x2 .f32) (main_arg7 : FVec F S2 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x2 .f32 := Host.absf main_arg6
  let main_cst_6 : FVec F S_ .f32 := constant S_ .f32 0x7F800000#32
  let main_v20 : FVec F S128x2 .f32 := broadcastInDim S128x2 ![] bcast_S_S128x2 main_cst_6
  let main_v21 : IVec S128x2 1 := cmpf .olt main_v19 main_v20
  let main_c_7 : IVec S_ 1 := constantI S_ 1 1#1
  let main_v22 : IVec S_ 1 := (fun x v => Host.reduce IntOp.andi x v reducesTo_S128x2_S_d0_1 h_S_) main_v21 main_c_7
  let main_v23 : IVec S_ 1 := andi main_v18 main_v22
  let main_v24 : FVec F S2 .f32 := Host.absf main_arg7
  let main_cst_8 : FVec F S_ .f32 := constant S_ .f32 0x7F800000#32
  let main_v25 : FVec F S2 .f32 := broadcastInDim S2 ![] bcast_S_S2 main_cst_8
  let main_v26 : IVec S2 1 := cmpf .olt main_v24 main_v25
  let main_c_9 : IVec S_ 1 := constantI S_ 1 1#1
  let main_v27 : IVec S_ 1 := (fun x v => Host.reduce IntOp.andi x v reducesTo_S2_S_d0 h_S_) main_v26 main_c_9
  let main_v28 : IVec S_ 1 := andi main_v23 main_v27
  let main_v29 : IVec S500000x2 32 := (extractStridedSlice S500000x2 ![0, 0] · slices_S500000x4_S500000x2_0_0) main_arg1
  let main_c_10 : IVec S_ 32 := constantI S_ 32 0#32
  let main_v30 : IVec S500000x2 32 := broadcastInDim S500000x2 ![] bcast_S_S500000x2 main_c_10
  let main_v31 : IVec S500000x2 1 := cmpi .sge main_v29 main_v30
  let main_c_11 : IVec S_ 32 := constantI S_ 32 100000#32
  let main_v32 : IVec S500000x2 32 := broadcastInDim S500000x2 ![] bcast_S_S500000x2 main_c_11
  let main_v33 : IVec S500000x2 1 := cmpi .slt main_v29 main_v32
  fn_part2 (F := F) main_arg2 main_v28 main_v31 main_v33

def fn {F : FTy → Type} [FloatOps F] (main_arg0 : FVec F S100000x64 .f32) (main_arg1 : IVec S500000x4 32) (main_arg2 : IVec S500000x4 32) (main_arg3 : FVec F S100000x64 .f32) (main_arg4 : FVec F S64x128 .f32) (main_arg5 : FVec F S128 .f32) (main_arg6 : FVec F S128x2 .f32) (main_arg7 : FVec F S2 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S100000x64 .f32 := Host.absf main_arg3
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S64x128 .f32 := Host.absf main_arg4
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg2 main_arg6 main_arg7 main_v13 main_v16
-- ==== Kernel.lean ====
abbrev S100000x64 : Shape := ⟨2, ![100000, 64]⟩
abbrev S500000x4 : Shape := ⟨2, ![500000, 4]⟩
abbrev S64x128 : Shape := ⟨2, ![64, 128]⟩
abbrev S128 : Shape := ⟨1, ![128]⟩
abbrev S128x2 : Shape := ⟨2, ![128, 2]⟩
abbrev S2 : Shape := ⟨1, ![2]⟩
abbrev S500000x1 : Shape := ⟨2, ![500000, 1]⟩
abbrev S500000 : Shape := ⟨1, ![500000]⟩
abbrev S1000000 : Shape := ⟨1, ![1000000]⟩
abbrev S_ : Shape := ⟨0, ![]⟩
abbrev S1000000x1 : Shape := ⟨2, ![1000000, 1]⟩
abbrev S1 : Shape := ⟨1, ![1]⟩
abbrev S1x1 : Shape := ⟨2, ![1, 1]⟩
abbrev S1000000x64 : Shape := ⟨2, ![1000000, 64]⟩
abbrev S1x128 : Shape := ⟨2, ![1, 128]⟩
abbrev S128x1 : Shape := ⟨2, ![128, 1]⟩
abbrev S1000000x2 : Shape := ⟨2, ![1000000, 2]⟩
abbrev S4000x64 : Shape := ⟨2, ![4000, 64]⟩
abbrev S4000x2 : Shape := ⟨2, ![4000, 2]⟩
abbrev S4000x128 : Shape := ⟨2, ![4000, 128]⟩
abbrev S4000x1 : Shape := ⟨2, ![4000, 1]⟩
abbrev S500000x2 : Shape := ⟨2, ![500000, 2]⟩
abbrev S500000x1x2 : Shape := ⟨3, ![500000, 1, 2]⟩

abbrev nBuf : Space → Nat
  | .hbm => 78
  | .vmem => 10
  | .smem => 0
  | _ => 0

abbrev bufTy : (tb : Table) → Fin (tcTables nBuf tb) → BufTy
  | .hbm, ⟨0, _⟩ => ⟨S100000x64, .f32⟩
  | .hbm, ⟨1, _⟩ => ⟨S500000x4, .i32⟩
  | .hbm, ⟨2, _⟩ => ⟨S500000x4, .i32⟩
  | .hbm, ⟨3, _⟩ => ⟨S100000x64, .f32⟩
  | .hbm, ⟨4, _⟩ => ⟨S64x128, .f32⟩
  | .hbm, ⟨5, _⟩ => ⟨S128, .f32⟩
  | .hbm, ⟨6, _⟩ => ⟨S128x2, .f32⟩
  | .hbm, ⟨7, _⟩ => ⟨S2, .f32⟩
  | .hbm, ⟨8, _⟩ => ⟨S500000x1, .i32⟩
  | .hbm, ⟨9, _⟩ => ⟨S500000, .i32⟩
  | .hbm, ⟨10, _⟩ => ⟨S500000x1, .i32⟩
  | .hbm, ⟨11, _⟩ => ⟨S500000, .i32⟩
  | .hbm, ⟨12, _⟩ => ⟨S1000000, .i32⟩
  | .hbm, ⟨13, _⟩ => ⟨S500000x1, .i32⟩
  | .hbm, ⟨14, _⟩ => ⟨S500000, .i32⟩
  | .hbm, ⟨15, _⟩ => ⟨S500000x1, .i32⟩
  | .hbm, ⟨16, _⟩ => ⟨S500000, .i32⟩
  | .hbm, ⟨17, _⟩ => ⟨S1000000, .i32⟩
  | .hbm, ⟨18, _⟩ => ⟨S_, .i32⟩
  | .hbm, ⟨19, _⟩ => ⟨S1000000, .i32⟩
  | .hbm, ⟨20, _⟩ => ⟨S1000000, .i1⟩
  | .hbm, ⟨21, _⟩ => ⟨S_, .i32⟩
  | .hbm, ⟨22, _⟩ => ⟨S1000000, .i32⟩
  | .hbm, ⟨23, _⟩ => ⟨S1000000, .i32⟩
  | .hbm, ⟨24, _⟩ => ⟨S1000000, .i32⟩
  | .hbm, ⟨25, _⟩ => ⟨S1000000x1, .i32⟩
  | .hbm, ⟨26, _⟩ => ⟨S1, .i32⟩
  | .hbm, ⟨27, _⟩ => ⟨S_, .i32⟩
  | .hbm, ⟨28, _⟩ => ⟨S1000000x1, .i32⟩
  | .hbm, ⟨29, _⟩ => ⟨S1000000x1, .i1⟩
  | .hbm, ⟨30, _⟩ => ⟨S1x1, .i32⟩
  | .hbm, ⟨31, _⟩ => ⟨S1000000x1, .i32⟩
  | .hbm, ⟨32, _⟩ => ⟨S1000000x1, .i1⟩
  | .hbm, ⟨33, _⟩ => ⟨S1000000x1, .i1⟩
  | .hbm, ⟨34, _⟩ => ⟨S_, .i1⟩
  | .hbm, ⟨35, _⟩ => ⟨S1000000, .i1⟩
  | .hbm, ⟨36, _⟩ => ⟨S1000000x64, .f32⟩
  | .hbm, ⟨37, _⟩ => ⟨S1000000x64, .i1⟩
  | .hbm, ⟨38, _⟩ => ⟨S_, .f32⟩
  | .hbm, ⟨39, _⟩ => ⟨S1000000x64, .f32⟩
  | .hbm, ⟨40, _⟩ => ⟨S1000000x64, .f32⟩
  | .hbm, ⟨41, _⟩ => ⟨S_, .i32⟩
  | .hbm, ⟨42, _⟩ => ⟨S1000000, .i32⟩
  | .hbm, ⟨43, _⟩ => ⟨S1000000, .i1⟩
  | .hbm, ⟨44, _⟩ => ⟨S_, .i32⟩
  | .hbm, ⟨45, _⟩ => ⟨S1000000, .i32⟩
  | .hbm, ⟨46, _⟩ => ⟨S1000000, .i32⟩
  | .hbm, ⟨47, _⟩ => ⟨S1000000, .i32⟩
  | .hbm, ⟨48, _⟩ => ⟨S1000000x1, .i32⟩
  | .hbm, ⟨49, _⟩ => ⟨S1, .i32⟩
  | .hbm, ⟨50, _⟩ => ⟨S_, .i32⟩
  | .hbm, ⟨51, _⟩ => ⟨S1000000x1, .i32⟩
  | .hbm, ⟨52, _⟩ => ⟨S1000000x1, .i1⟩
  | .hbm, ⟨53, _⟩ => ⟨S1x1, .i32⟩
  | .hbm, ⟨54, _⟩ => ⟨S1000000x1, .i32⟩
  | .hbm, ⟨55, _⟩ => ⟨S1000000x1, .i1⟩
  | .hbm, ⟨56, _⟩ => ⟨S1000000x1, .i1⟩
  | .hbm, ⟨57, _⟩ => ⟨S_, .i1⟩
  | .hbm, ⟨58, _⟩ => ⟨S1000000, .i1⟩
  | .hbm, ⟨59, _⟩ => ⟨S1000000x64, .f32⟩
  | .hbm, ⟨60, _⟩ => ⟨S1000000x64, .i1⟩
  | .hbm, ⟨61, _⟩ => ⟨S_, .f32⟩
  | .hbm, ⟨62, _⟩ => ⟨S1000000x64, .f32⟩
  | .hbm, ⟨63, _⟩ => ⟨S1000000x64, .f32⟩
  | .hbm, ⟨64, _⟩ => ⟨S1x128, .f32⟩
  | .hbm, ⟨65, _⟩ => ⟨S128x1, .f32⟩
  | .hbm, ⟨66, _⟩ => ⟨S128x1, .f32⟩
  | .hbm, ⟨67, _⟩ => ⟨S128x1, .f32⟩
  | .hbm, ⟨68, _⟩ => ⟨S1, .f32⟩
  | .hbm, ⟨69, _⟩ => ⟨S_, .f32⟩
  | .hbm, ⟨70, _⟩ => ⟨S1, .f32⟩
  | .hbm, ⟨71, _⟩ => ⟨S_, .f32⟩
  | .hbm, ⟨72, _⟩ => ⟨S_, .f32⟩
  | .hbm, ⟨73, _⟩ => ⟨S1x1, .f32⟩
  | .hbm, ⟨74, _⟩ => ⟨S1000000x2, .f32⟩
  | .hbm, ⟨75, _⟩ => ⟨S500000x2, .f32⟩
  | .hbm, ⟨76, _⟩ => ⟨S500000x2, .f32⟩
  | .hbm, ⟨77, _⟩ => ⟨S500000x1x2, .f32⟩
  | .local _ .vmem, ⟨0, _⟩ => ⟨S4000x64, .f32⟩
  | .local _ .vmem, ⟨1, _⟩ => ⟨S4000x64, .f32⟩
  | .local _ .vmem, ⟨2, _⟩ => ⟨S4000x64, .f32⟩
  | .local _ .vmem, ⟨3, _⟩ => ⟨S4000x64, .f32⟩
  | .local _ .vmem, ⟨4, _⟩ => ⟨S64x128, .f32⟩
  | .local _ .vmem, ⟨5, _⟩ => ⟨S1x128, .f32⟩
  | .local _ .vmem, ⟨6, _⟩ => ⟨S128x1, .f32⟩
  | .local _ .vmem, ⟨7, _⟩ => ⟨S1x1, .f32⟩
  | .local _ .vmem, ⟨8, _⟩ => ⟨S4000x2, .f32⟩
  | .local _ .vmem, ⟨9, _⟩ => ⟨S4000x2, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_call0_c : Ref sig .tc := ⟨.hbm, 18, rfl⟩
abbrev main_call0_v0 : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_c_1 : Ref sig .tc := ⟨.hbm, 26, rfl⟩
abbrev main_call0_c_2 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_3 : Ref sig .tc := ⟨.hbm, 34, rfl⟩
abbrev main_call0_v12 : Ref sig .tc := ⟨.hbm, 35, rfl⟩
abbrev main_call0_v13 : Ref sig .tc := ⟨.hbm, 36, rfl⟩
abbrev main_call0_v14 : Ref sig .tc := ⟨.hbm, 37, rfl⟩
abbrev main_call0_cst : Ref sig .tc := ⟨.hbm, 38, rfl⟩
abbrev main_call0_v15 : Ref sig .tc := ⟨.hbm, 39, rfl⟩
abbrev main_v10 : Ref sig .tc := ⟨.hbm, 40, rfl⟩
abbrev main_call1_c : Ref sig .tc := ⟨.hbm, 41, rfl⟩
abbrev main_call1_v0 : Ref sig .tc := ⟨.hbm, 42, rfl⟩
abbrev main_call1_v1 : Ref sig .tc := ⟨.hbm, 43, rfl⟩
abbrev main_call1_c_0 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_v5 : Ref sig .tc := ⟨.hbm, 48, rfl⟩
abbrev main_call1_c_1 : Ref sig .tc := ⟨.hbm, 49, rfl⟩
abbrev main_call1_c_2 : Ref sig .tc := ⟨.hbm, 50, rfl⟩
abbrev main_call1_v6 : Ref sig .tc := ⟨.hbm, 51, rfl⟩
abbrev main_call1_v7 : Ref sig .tc := ⟨.hbm, 52, rfl⟩
abbrev main_call1_v8 : Ref sig .tc := ⟨.hbm, 53, rfl⟩
abbrev main_call1_v9 : Ref sig .tc := ⟨.hbm, 54, rfl⟩
abbrev main_call1_v10 : Ref sig .tc := ⟨.hbm, 55, rfl⟩
abbrev main_call1_v11 : Ref sig .tc := ⟨.hbm, 56, rfl⟩
abbrev main_call1_c_3 : Ref sig .tc := ⟨.hbm, 57, rfl⟩
abbrev main_call1_v12 : Ref sig .tc := ⟨.hbm, 58, rfl⟩
abbrev main_call1_v13 : Ref sig .tc := ⟨.hbm, 59, rfl⟩
abbrev main_call1_v14 : Ref sig .tc := ⟨.hbm, 60, rfl⟩
abbrev main_call1_cst : Ref sig .tc := ⟨.hbm, 61, rfl⟩
abbrev main_call1_v15 : Ref sig .tc := ⟨.hbm, 62, rfl⟩
abbrev main_v11 : Ref sig .tc := ⟨.hbm, 63, rfl⟩
abbrev main_v12 : Ref sig .tc := ⟨.hbm, 64, rfl⟩
abbrev main_v13 : Ref sig .tc := ⟨.hbm, 65, rfl⟩
abbrev main_v14 : Ref sig .tc := ⟨.hbm, 66, rfl⟩
abbrev main_v15 : Ref sig .tc := ⟨.hbm, 67, rfl⟩
abbrev main_v16 : Ref sig .tc := ⟨.hbm, 68, rfl⟩
abbrev main_v17 : Ref sig .tc := ⟨.hbm, 69, rfl⟩
abbrev main_v18 : Ref sig .tc := ⟨.hbm, 70, rfl⟩
abbrev main_v19 : Ref sig .tc := ⟨.hbm, 71, rfl⟩
abbrev main_v20 : Ref sig .tc := ⟨.hbm, 72, rfl⟩
abbrev main_v21 : Ref sig .tc := ⟨.hbm, 73, rfl⟩
abbrev main_v22 : Ref sig .tc := ⟨.hbm, 74, rfl⟩
abbrev main_v23 : Ref sig .tc := ⟨.hbm, 75, rfl⟩
abbrev main_v24 : Ref sig .tc := ⟨.hbm, 76, rfl⟩
abbrev main_v25 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x2 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S500000x4_S500000x1_0_0 : S500000x4.Slices ![0, 0] S500000x1
  shapeCasts_S500000x1_S500000 : S500000x1.ShapeCasts S500000
  concatenates_S500000_S500000_S1000000_d0 : Shape.Concatenates [S500000, S500000] S1000000 0
  slices_S500000x4_S500000x1_0_1 : S500000x4.Slices ![0, 1] S500000x1
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S1000000x1 : S_.BroadcastsInDim S1000000x1 (![] : Fin 0 → Fin S1000000x1.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  reducesTo_S1000000x1_S1000000_d1 : S1000000x1.ReducesTo [1] S1000000
  h_S_ : 0 < S_.numel
  bcast_S1000000_S1000000x64_0 : S1000000.BroadcastsInDim S1000000x64 (![0] : Fin 1 → Fin S1000000x64.rank)
  bcast_S_S1000000x64 : S_.BroadcastsInDim S1000000x64 (![] : Fin 0 → Fin S1000000x64.rank)
  shapeCasts_S128_S1x128 : S128.ShapeCasts S1x128
  slices_S128x2_S128x1_0_1 : S128x2.Slices ![0, 1] S128x1
  slices_S128x2_S128x1_0_0 : S128x2.Slices ![0, 0] S128x1
  slices_S2_S1_1 : S2.Slices ![1] S1
  shapeCasts_S1_S_ : S1.ShapeCasts S_
  slices_S2_S1_0 : S2.Slices ![0] S1
  shapeCasts_S_S1x1 : S_.ShapeCasts S1x1
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4000x1 : S1x1.Broadcasts S4000x1
  concatenates_S4000x1_S4000x1_S4000x2_d1 : Shape.Concatenates [S4000x1, S4000x1] S4000x2 1
  inb_S4000x2_S4000x2_0_0 : ∀ a, (![0, 0] : Fin 2 → Nat) a + S4000x2.size a ≤ S4000x2.size a
  h_S4000x2 : 0 < S4000x2.numel
  slices_S1000000x2_S500000x2_0_0 : S1000000x2.Slices ![0, 0] S500000x2
  slices_S1000000x2_S500000x2_500000_0 : S1000000x2.Slices ![500000, 0] S500000x2
  bcast_S500000x2_S500000x1x2_0_2 : S500000x2.BroadcastsInDim S500000x1x2 (![0, 2] : Fin 2 → Fin S500000x1x2.rank)
  gather_S100000x64_S1000000x1_S1000000x64_1_0_n_n_0_1_164_wf : GatherDims.WF S100000x64 S1000000x1 S1000000x64 [1] [0] [] [0] [] 1 ![1, 64]
  dot_S4000x64_S64x128_S4000x128_1_0_0_1_n_n_wf : DotDims.WF S4000x64 S64x128 S4000x128 [1] [0] [0] [1] [] []
  dot_S4000x128_S128x1_S4000x1_1_0_0_1_n_n_wf : DotDims.WF S4000x128 S128x1 S4000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S1000000x64.size a
  hwx0_0 : ∀ i : grid0.Coords, EltTy.bits .f32 = 32 ∨ (Rect.block (s := S1000000x64) S4000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x64.size a ≤ S1000000x64.size a
  hwx0_1 : ∀ i : grid0.Coords, EltTy.bits .f32 = 32 ∨ (Rect.block (s := S1000000x64) S4000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x1.size a ≤ S128x1.size a
  hwx0_4 : ∀ i : grid0.Coords, EltTy.bits .f32 = 32 ∨ (Rect.block (s := S128x1) S128x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x2.size a ≤ S1000000x2.size a
  hwx0_6 : ∀ i : grid0.Coords, EltTy.bits .f32 = 32 ∨ (Rect.block (s := S1000000x2) S4000x2.size (cc0_transform_6 i) (hinb0_6 i)).WholeWords (EltTy.packing .f32)

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def dot_S4000x64_S64x128_S4000x128_1_0_0_1_n_n : DotDims S4000x64 S64x128 S4000x128 where
  lhsContracting := [1]
  rhsContracting := [0]
  lhsNonContracting := [0]
  rhsNonContracting := [1]
  lhsBatch := []
  rhsBatch := []
  wf := dot_S4000x64_S64x128_S4000x128_1_0_0_1_n_n_wf
def dot_S4000x128_S128x1_S4000x1_1_0_0_1_n_n : DotDims S4000x128 S128x1 S4000x1 where
  lhsContracting := [1]
  rhsContracting := [0]
  lhsNonContracting := [0]
  rhsNonContracting := [1]
  lhsBatch := []
  rhsBatch := []
  wf := dot_S4000x128_S128x1_S4000x1_1_0_0_1_n_n_wf

abbrev win0_0 : Pipeline.Window sig grid0 :=
  Pipeline.Window.ofSpec (Memref.whole main_v10) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S4000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S128x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S1x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S4000x2.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x64 : Shape := ⟨2, ![100000, 64]⟩
abbrev S500000x4 : Shape := ⟨2, ![500000, 4]⟩
abbrev S64x128 : Shape := ⟨2, ![64, 128]⟩
abbrev S128 : Shape := ⟨1, ![128]⟩
abbrev S128x2 : Shape := ⟨2, ![128, 2]⟩
abbrev S2 : Shape := ⟨1, ![2]⟩
abbrev S500000x1 : Shape := ⟨2, ![500000, 1]⟩
abbrev S500000 : Shape := ⟨1, ![500000]⟩
abbrev S_ : Shape := ⟨0, ![]⟩
abbrev S500000x64 : Shape := ⟨2, ![500000, 64]⟩
abbrev S500000x128 : Shape := ⟨2, ![500000, 128]⟩
abbrev S1x128 : Shape := ⟨2, ![1, 128]⟩
abbrev S500000x2 : Shape := ⟨2, ![500000, 2]⟩
abbrev S1x2 : Shape := ⟨2, ![1, 2]⟩
abbrev S500000x1x2 : Shape := ⟨3, ![500000, 1, 2]⟩

abbrev nBuf : Space → Nat
  | .hbm => 105
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S500000x4, .i32⟩
  | .hbm, ⟨2, _⟩ => ⟨S500000x4, .i32⟩
  | .hbm, ⟨3, _⟩ => ⟨S100000x64, .f32⟩
  | .hbm, ⟨4, _⟩ => ⟨S64x128, .f32⟩
  | .hbm, ⟨5, _⟩ => ⟨S128, .f32⟩
  | .hbm, ⟨6, _⟩ => ⟨S128x2, .f32⟩
  | .hbm, ⟨7, _⟩ => ⟨S2, .f32⟩
  | .hbm, ⟨8, _⟩ => ⟨S500000x1, .i32⟩
  | .hbm, ⟨9, _⟩ => ⟨S500000, .i32⟩
  | .hbm, ⟨10, _⟩ => ⟨S_, .i32⟩
  | .hbm, ⟨11, _⟩ => ⟨S500000, .i32⟩
  | .hbm, ⟨12, _⟩ => ⟨S500000, .i1⟩
  | .hbm, ⟨13, _⟩ => ⟨S_, .i32⟩
  | .hbm, ⟨14, _⟩ => ⟨S500000, .i32⟩
  | .hbm, ⟨15, _⟩ => ⟨S500000, .i32⟩
  | .hbm, ⟨16, _⟩ => ⟨S500000, .i32⟩
  | .hbm, ⟨17, _⟩ => ⟨S500000x1, .i32⟩
  | .hbm, ⟨18, _⟩ => ⟨S500000x64, .f32⟩
  | .hbm, ⟨19, _⟩ => ⟨S500000x1, .i32⟩
  | .hbm, ⟨20, _⟩ => ⟨S500000, .i32⟩
  | .hbm, ⟨21, _⟩ => ⟨S_, .i32⟩
  | .hbm, ⟨22, _⟩ => ⟨S500000, .i32⟩
  | .hbm, ⟨23, _⟩ => ⟨S500000, .i1⟩
  | .hbm, ⟨24, _⟩ => ⟨S_, .i32⟩
  | .hbm, ⟨25, _⟩ => ⟨S500000, .i32⟩
  | .hbm, ⟨26, _⟩ => ⟨S500000, .i32⟩
  | .hbm, ⟨27, _⟩ => ⟨S500000, .i32⟩
  | .hbm, ⟨28, _⟩ => ⟨S500000x1, .i32⟩
  | .hbm, ⟨29, _⟩ => ⟨S500000x64, .f32⟩
  | .hbm, ⟨30, _⟩ => ⟨S500000x64, .f32⟩
  | .hbm, ⟨31, _⟩ => ⟨S500000x128, .f32⟩
  | .hbm, ⟨32, _⟩ => ⟨S1x128, .f32⟩
  | .hbm, ⟨33, _⟩ => ⟨S500000x128, .f32⟩
  | .hbm, ⟨34, _⟩ => ⟨S500000x128, .f32⟩
  | .hbm, ⟨35, _⟩ => ⟨S_, .f32⟩
  | .hbm, ⟨36, _⟩ => ⟨S500000x128, .f32⟩
  | .hbm, ⟨37, _⟩ => ⟨S500000x128, .f32⟩
  | .hbm, ⟨38, _⟩ => ⟨S500000x2, .f32⟩
  | .hbm, ⟨39, _⟩ => ⟨S1x2, .f32⟩
  | .hbm, ⟨40, _⟩ => ⟨S500000x2, .f32⟩
  | .hbm, ⟨41, _⟩ => ⟨S500000x2, .f32⟩
  | .hbm, ⟨42, _⟩ => ⟨S_, .f32⟩
  | .hbm, ⟨43, _⟩ => ⟨S500000, .f32⟩
  | .hbm, ⟨44, _⟩ => ⟨S_, .f32⟩
  | .hbm, ⟨45, _⟩ => ⟨S500000, .f32⟩
  | .hbm, ⟨46, _⟩ => ⟨S500000, .f32⟩
  | .hbm, ⟨47, _⟩ => ⟨S500000x1, .f32⟩
  | .hbm, ⟨48, _⟩ => ⟨S500000x2, .f32⟩
  | .hbm, ⟨49, _⟩ => ⟨S500000x2, .f32⟩
  | .hbm, ⟨50, _⟩ => ⟨S500000x2, .f32⟩
  | .hbm, ⟨51, _⟩ => ⟨S_, .f32⟩
  | .hbm, ⟨52, _⟩ => ⟨S500000, .f32⟩
  | .hbm, ⟨53, _⟩ => ⟨S500000x1, .f32⟩
  | .hbm, ⟨54, _⟩ => ⟨S500000x2, .f32⟩
  | .hbm, ⟨55, _⟩ => ⟨S500000x2, .f32⟩
  | .hbm, ⟨56, _⟩ => ⟨S500000x1, .i32⟩
  | .hbm, ⟨57, _⟩ => ⟨S500000, .i32⟩
  | .hbm, ⟨58, _⟩ => ⟨S_, .i32⟩
  | .hbm, ⟨59, _⟩ => ⟨S500000, .i32⟩
  | .hbm, ⟨60, _⟩ => ⟨S500000, .i1⟩
  | .hbm, ⟨61, _⟩ => ⟨S_, .i32⟩
  | .hbm, ⟨62, _⟩ => ⟨S500000, .i32⟩
  | .hbm, ⟨63, _⟩ => ⟨S500000, .i32⟩
  | .hbm, ⟨64, _⟩ => ⟨S500000, .i32⟩
  | .hbm, ⟨65, _⟩ => ⟨S500000x1, .i32⟩
  | .hbm, ⟨66, _⟩ => ⟨S500000x64, .f32⟩
  | .hbm, ⟨67, _⟩ => ⟨S500000x1, .i32⟩
  | .hbm, ⟨68, _⟩ => ⟨S500000, .i32⟩
  | .hbm, ⟨69, _⟩ => ⟨S_, .i32⟩
  | .hbm, ⟨70, _⟩ => ⟨S500000, .i32⟩
  | .hbm, ⟨71, _⟩ => ⟨S500000, .i1⟩
  | .hbm, ⟨72, _⟩ => ⟨S_, .i32⟩
  | .hbm, ⟨73, _⟩ => ⟨S500000, .i32⟩
  | .hbm, ⟨74, _⟩ => ⟨S500000, .i32⟩
  | .hbm, ⟨75, _⟩ => ⟨S500000, .i32⟩
  | .hbm, ⟨76, _⟩ => ⟨S500000x1, .i32⟩
  | .hbm, ⟨77, _⟩ => ⟨S500000x64, .f32⟩
  | .hbm, ⟨78, _⟩ => ⟨S500000x64, .f32⟩
  | .hbm, ⟨79, _⟩ => ⟨S500000x128, .f32⟩
  | .hbm, ⟨80, _⟩ => ⟨S1x128, .f32⟩
  | .hbm, ⟨81, _⟩ => ⟨S500000x128, .f32⟩
  | .hbm, ⟨82, _⟩ => ⟨S500000x128, .f32⟩
  | .hbm, ⟨83, _⟩ => ⟨S_, .f32⟩
  | .hbm, ⟨84, _⟩ => ⟨S500000x128, .f32⟩
  | .hbm, ⟨85, _⟩ => ⟨S500000x128, .f32⟩
  | .hbm, ⟨86, _⟩ => ⟨S500000x2, .f32⟩
  | .hbm, ⟨87, _⟩ => ⟨S1x2, .f32⟩
  | .hbm, ⟨88, _⟩ => ⟨S500000x2, .f32⟩
  | .hbm, ⟨89, _⟩ => ⟨S500000x2, .f32⟩
  | .hbm, ⟨90, _⟩ => ⟨S_, .f32⟩
  | .hbm, ⟨91, _⟩ => ⟨S500000, .f32⟩
  | .hbm, ⟨92, _⟩ => ⟨S_, .f32⟩
  | .hbm, ⟨93, _⟩ => ⟨S500000, .f32⟩
  | .hbm, ⟨94, _⟩ => ⟨S500000, .f32⟩
  | .hbm, ⟨95, _⟩ => ⟨S500000x1, .f32⟩
  | .hbm, ⟨96, _⟩ => ⟨S500000x2, .f32⟩
  | .hbm, ⟨97, _⟩ => ⟨S500000x2, .f32⟩
  | .hbm, ⟨98, _⟩ => ⟨S500000x2, .f32⟩
  | .hbm, ⟨99, _⟩ => ⟨S_, .f32⟩
  | .hbm, ⟨100, _⟩ => ⟨S500000, .f32⟩
  | .hbm, ⟨101, _⟩ => ⟨S500000x1, .f32⟩
  | .hbm, ⟨102, _⟩ => ⟨S500000x2, .f32⟩
  | .hbm, ⟨103, _⟩ => ⟨S500000x2, .f32⟩
  | .hbm, ⟨104, _⟩ => ⟨S500000x1x2, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_call0_cst : Ref sig .tc := ⟨.hbm, 35, rfl⟩
abbrev main_call0_v0 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst : Ref sig .tc := ⟨.hbm, 42, rfl⟩
abbrev main_v28 : Ref sig .tc := ⟨.hbm, 43, rfl⟩
abbrev main_cst_3 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_4 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_c_5 : Ref sig .tc := ⟨.hbm, 58, rfl⟩
abbrev main_v41 : Ref sig .tc := ⟨.hbm, 59, rfl⟩
abbrev main_v42 : Ref sig .tc := ⟨.hbm, 60, rfl⟩
abbrev main_c_6 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_c_7 : Ref sig .tc := ⟨.hbm, 69, rfl⟩
abbrev main_v50 : Ref sig .tc := ⟨.hbm, 70, rfl⟩
abbrev main_v51 : Ref sig .tc := ⟨.hbm, 71, rfl⟩
abbrev main_c_8 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_call1_cst : Ref sig .tc := ⟨.hbm, 83, rfl⟩
abbrev main_call1_v0 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_9 : Ref sig .tc := ⟨.hbm, 90, rfl⟩
abbrev main_v67 : Ref sig .tc := ⟨.hbm, 91, rfl⟩
abbrev main_cst_10 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_cst_11 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩

abbrev nD : Nat := 1
abbrev τ : Topo := Topo.v7x

variable {F : FTy → Type} [FloatOps F]

class Facts₀ : Prop where
  slices_S500000x4_S500000x1_0_0 : S500000x4.Slices ![0, 0] S500000x1
  shapeCasts_S500000x1_S500000 : S500000x1.ShapeCasts S500000
  bcast_S_S500000 : S_.BroadcastsInDim S500000 (![] : Fin 0 → Fin S500000.rank)
  bcast_S500000_S500000x1_0 : S500000.BroadcastsInDim S500000x1 (![0] : Fin 1 → Fin S500000x1.rank)
  slices_S500000x4_S500000x1_0_1 : S500000x4.Slices ![0, 1] S500000x1
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  bcast_S_S500000x128 : S_.BroadcastsInDim S500000x128 (![] : Fin 0 → Fin S500000x128.rank)
  bcast_S2_S1x2_1 : S2.BroadcastsInDim S1x2 (![1] : Fin 1 → Fin S1x2.rank)
  bcast_S1x2_S500000x2_0_1 : S1x2.BroadcastsInDim S500000x2 (![0, 1] : Fin 2 → Fin S500000x2.rank)
  reducesTo_S500000x2_S500000_d1 : S500000x2.ReducesTo [1] S500000
  h_S_ : 0 < S_.numel
  bcast_S500000x1_S500000x2_0_1 : S500000x1.BroadcastsInDim S500000x2 (![0, 1] : Fin 2 → Fin S500000x2.rank)
  bcast_S500000x2_S500000x1x2_0_2 : S500000x2.BroadcastsInDim S500000x1x2 (![0, 2] : Fin 2 → Fin S500000x1x2.rank)
  gather_S100000x64_S500000x1_S500000x64_1_0_n_n_0_1_164_wf : GatherDims.WF S100000x64 S500000x1 S500000x64 [1] [0] [] [0] [] 1 ![1, 64]
  dot_S500000x64_S64x128_S500000x128_1_0_0_1_n_n_wf : DotDims.WF S500000x64 S64x128 S500000x128 [1] [0] [0] [1] [] []
  dot_S500000x128_S128x2_S500000x2_1_0_0_1_n_n_wf : DotDims.WF S500000x128 S128x2 S500000x2 [1] [0] [0] [1] [] []

variable [Facts₀]

def gather_S100000x64_S500000x1_S500000x64_1_0_n_n_0_1_164 : GatherDims S100000x64 S500000x1 S500000x64 where
  offsetDims := [1]
  collapsedSliceDims := [0]
  operandBatchingDims := []
  startIndicesBatchingDims := []
  startIndexMap := [0]
  indexVectorDim := 1
  sliceSizes := ![1, 64]
  wf := gather_S100000x64_S500000x1_S500000x64_1_0_n_n_0_1_164_wf
def dot_S500000x64_S64x128_S500000x128_1_0_0_1_n_n : DotDims S500000x64 S64x128 S500000x128 where
  lhsContracting := [1]
  rhsContracting := [0]
  lhsNonContracting := [0]
  rhsNonContracting := [1]
  lhsBatch := []
  rhsBatch := []
  wf := dot_S500000x64_S64x128_S500000x128_1_0_0_1_n_n_wf
def dot_S500000x128_S128x2_S500000x2_1_0_0_1_n_n : DotDims S500000x128 S128x2 S500000x2 where
  lhsContracting := [1]
  rhsContracting := [0]
  lhsNonContracting := [0]
  rhsNonContracting := [1]
  lhsBatch := []
  rhsBatch := []
  wf := dot_S500000x128_S128x2_S500000x2_1_0_0_1_n_n_wf

class Facts : Prop extends Facts₀ where

variable [Facts]
-- ==== Proof.Spec.lean ====
/-
  The edge probabilities as functions of the argument arrays.
  A clique row carries two node ids. Each id reads a row of the node table (a negative id counts from the end, the
  normalised id is clamped into the table). With `xi`, `xj` the two rows, the hidden layer is
  `h j = max (∑ k, xi k * xj k * W5 k j + b5 j) 0`, the two logits are `l c = ∑ j, h j * W6 j c + b6 c`, and the result
  is the softmax of `(l 0, l 1)`. The same pair is `(1 - p, p)` with `p` the logistic function of `d = l 1 - l 0`,
  written without overflow as `1 / (1 + e)` for `d ≥ 0` and `e / (1 + e)` for `d < 0`, `e = exp (-|d|)`; and `d` is
  `∑ j, h j * (W6 j 1 - W6 j 0) + (b6 1 - b6 0)`. Over the reals the two forms agree; on the extended reals the
  agreement needs every entry to be a real number (distributing `h j` over a difference fails at infinities).
-/
import Idealize.ShloMosaic.PureOps.Ideal
import Idealize.ShloMosaic.PureOps.Ideal.Laws
import Idealize.ShloMosaic.Lib.ValueIdx

noncomputable section

namespace Cert.EdgeProb

open Idealize.ShloMosaic Idealize.ShloMosaic.ValueIdx

/-- A node id normalised as an array index is: a negative one counts from the end of the 100000 rows. -/
def wrapIdx (v : BitVec 32) : BitVec 32 :=
  Scalar.select (IntOp.cmpi .slt v 0#32) (IntOp.addi v 100000#32) v

/-- The table row a node id reads: the normalised id, read signed and clamped into the table. -/
def rowOf (v : BitVec 32) : Fin 100000 := ⟨min (wrapIdx v).toInt.toNat (100000 - 1), by omega⟩

/-- A node id is a row of the table: `0 ≤ v < 100000`, as the two signed range tests. -/
def InRange (v : BitVec 32) : Prop := IntOp.cmpi .sge v 0#32 = 1#1 ∧ IntOp.cmpi .slt v 100000#32 = 1#1

/-- The normalised id passes both range tests `0 ≤ · ≤ 99999`: a lookup that fills the rows of out-of-range ids
    keeps this row. -/
def MaskOK (v : BitVec 32) : Prop :=
  IntOp.andi (IntOp.cmpi .sge (wrapIdx v) 0#32) (IntOp.cmpi .sle (wrapIdx v) 99999#32) = 1#1

/-- Hidden unit `j` of the pair of rows `xi`, `xj`: `max ((xi ⊙ xj) · W5[:, j] + b5[j]) 0`. -/
def hidden (xi xj : Fin 64 → EReal) (W5 : Fin 64 → Fin 128 → EReal) (b5 : Fin 128 → EReal) (j : Fin 128) : EReal :=
  max ((∑ k : Fin 64, xi k * xj k * W5 k j) + b5 j) 0

/-- The pair `(1 - p, p)`, `p` the logistic function of `d = h · dW + db` in its overflow-free form. -/
def sigmoidRow (h : Fin 128 → EReal) (dW : Fin 128 → EReal) (db : EReal) (c : Fin 2) : EReal :=
  let d : EReal := (∑ j : Fin 128, h j * dW j) + db
  let e : EReal := Ideal.exp (0 - max d (-d))
  let p : EReal := Scalar.select (Ideal.cmp .oge d 0) (Ideal.div 1 (1 + e)) (Ideal.div e (1 + e))
  if c = 0 then 1 - p else p

/-- The softmax of the two logits `l c = h · W6[:, c] + b6[c]`, shifted by their maximum. -/
def softmaxRow (h : Fin 128 → EReal) (W6 : Fin 128 → Fin 2 → EReal) (b6 : Fin 2 → EReal) (c : Fin 2) : EReal :=
  let l : Fin 2 → EReal := fun a => (∑ j : Fin 128, h j * W6 j a) + b6 a
  let u : Fin 2 → EReal := fun a => Ideal.exp (l a - max (l 0) (l 1))
  Ideal.div (u c) (u 0 + u 1)

/-- Node id `a` of row `t` of the two clique arrays laid one after the other: the first 500000 rows are the first
    array's, the rest the second's. -/
def fusedId (cr cs : (⟨2, ![500000, 4]⟩ : Shape).Idx → BitVec 32) (a : Fin 4) (t : Fin 1000000) : BitVec 32 :=
  if h : t.val < 500000 then cr (ix2 (⟨t.val, h⟩ : Fin 500000) a)
  else cs (ix2 (⟨t.val - 500000, by have := t.isLt; omega⟩ : Fin 500000) a)

/-! ## The two forms over the argument arrays -/

/-- The probabilities of a clique row with node ids `v0`, `v1`, as the softmax of the logits. -/
def probs (nf : (⟨2, ![100000, 64]⟩ : Shape).Idx → EReal) (W5 : (⟨2, ![64, 128]⟩ : Shape).Idx → EReal)
    (b5 : (⟨1, ![128]⟩ : Shape).Idx → EReal) (W6 : (⟨2, ![128, 2]⟩ : Shape).Idx → EReal)
    (b6 : (⟨1, ![2]⟩ : Shape).Idx → EReal) (v0 v1 : BitVec 32) (c : Fin 2) : EReal :=
  softmaxRow (hidden (fun k => nf (ix2 (rowOf v0) k)) (fun k => nf (ix2 (rowOf v1) k)) (fun k j => W5 (ix2 k j))
    (fun j => b5 (ix1 j))) (fun j a => W6 (ix2 j a)) (fun a => b6 (ix1 a)) c

/-- The same probabilities as the logistic function of the logit difference. -/
def probsDiff (nf : (⟨2, ![100000, 64]⟩ : Shape).Idx → EReal) (W5 : (⟨2, ![64, 128]⟩ : Shape).Idx → EReal)
    (b5 : (⟨1, ![128]⟩ : Shape).Idx → EReal) (W6 : (⟨2, ![128, 2]⟩ : Shape).Idx → EReal)
    (b6 : (⟨1, ![2]⟩ : Shape).Idx → EReal) (v0 v1 : BitVec 32) (c : Fin 2) : EReal :=
  sigmoidRow (hidden (fun k => nf (ix2 (rowOf v0) k)) (fun k => nf (ix2 (rowOf v1) k)) (fun k j => W5 (ix2 k j))
    (fun j => b5 (ix1 j))) (fun j => W6 (ix2 j (1 : Fin 2)) - W6 (ix2 j (0 : Fin 2)))
    (b6 (ix1 (1 : Fin 2)) - b6 (ix1 (0 : Fin 2))) c

end Cert.EdgeProb

end
-- ==== Proof.SpecAlg.lean ====
/-
  The two forms of the edge probabilities agree on real entries.
  With real `h`, `W6`, `b6` the logits `l 0`, `l 1` are real and `d = ∑ j, h j * (W6 j 1 - W6 j 0) + (b6 1 - b6 0)`
  is `l 1 - l 0`. For `d ≥ 0` the maximum is `l 1`, the shifted exponentials are `e = exp (-d)` and `1`, and the
  softmax is `(e / (e + 1), 1 / (e + 1))`; the logistic form gives `p = 1 / (1 + e)` and `1 - p = e / (1 + e)`. For
  `d < 0` the maximum is `l 0`, the exponentials are `1` and `e = exp d`, the softmax is `(1 / (1 + e), e / (1 + e))`,
  and the logistic form gives `p = e / (1 + e)`, `1 - p = 1 / (1 + e)`.
-/
import proofs.«401710_j41463614276026_3_alg».proof.Proof.Spec

noncomputable section

namespace Cert.EdgeProb

open Idealize.ShloMosaic Idealize.ShloMosaic.ValueIdx

/-- A one-bit word made from a truth value is `1` exactly when the truth value is true. -/
private theorem ofBool_eq_one (b : Bool) : BitVec.ofBool b = 1#1 ↔ b = true := by cases b <;> decide

/-- The inclusion of the reals in the extended reals commutes with finite sums. -/
private theorem coe_sum {ι : Type} (s : Finset ι) (f : ι → ℝ) :
    (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

/-- The inclusion of the reals in the extended reals is monotone, so it commutes with the maximum. -/
private theorem coe_max (x y : ℝ) : ((max x y : ℝ) : EReal) = max (x : EReal) (y : EReal) := by
  rcases le_total x y with h | h
  · rw [max_eq_right h, max_eq_right (EReal.coe_le_coe_iff.mpr h)]
  · rw [max_eq_left h, max_eq_left (EReal.coe_le_coe_iff.mpr h)]

/-- A node id in `[0, 100000)` is its own normal form, and the normal form lies in `[0, 99999]`: both range tests of
    the normalised id hold. -/
theorem maskOK_of_inRange (v : BitVec 32) (h : InRange v) : MaskOK v := by
  -- the three literals read signed
  have e0 : (0#32 : BitVec 32).toInt = 0 := by decide
  have e1 : (100000#32 : BitVec 32).toInt = 100000 := by decide
  have e2 : (99999#32 : BitVec 32).toInt = 99999 := by decide
  -- the two range tests, as inequalities between signed values
  have h0 : (0 : Int) ≤ v.toInt := by
    have := (ofBool_eq_one _).mp h.1
    rw [BitVec.sle_iff_toInt_le, e0] at this; exact this
  have h1 : v.toInt < 100000 := by
    have := (ofBool_eq_one _).mp h.2
    rw [BitVec.slt_iff_toInt_lt, e1] at this; exact this
  -- a non-negative id is not below zero, so normalising leaves it alone
  have hneg : v.slt 0#32 = false := by
    rw [Bool.eq_false_iff]; intro hc; rw [BitVec.slt_iff_toInt_lt, e0] at hc; omega
  have hw : wrapIdx v = v := by
    unfold wrapIdx Scalar.select IntOp.cmpi
    rw [hneg]; rfl
  -- and `0 ≤ v ≤ 99999` are the two tests of the mask
  have a : (0#32 : BitVec 32).sle v = true := by rw [BitVec.sle_iff_toInt_le, e0]; exact h0
  have b : v.sle 99999#32 = true := by rw [BitVec.sle_iff_toInt_le, e2]; omega
  unfold MaskOK
  rw [hw]
  show BitVec.ofBool ((0#32 : BitVec 32).sle v) &&& BitVec.ofBool (v.sle 99999#32) = 1#1
  rw [a, b]; decide

/-- A hidden unit of real rows, weights and bias is a real number. -/
theorem hidden_real (xi xj : Fin 64 → EReal) (W5 : Fin 64 → Fin 128 → EReal) (b5 : Fin 128 → EReal)
    (hxi : ∀ k, ∃ r : ℝ, xi k = (r : EReal)) (hxj : ∀ k, ∃ r : ℝ, xj k = (r : EReal))
    (hW5 : ∀ k j, ∃ r : ℝ, W5 k j = (r : EReal)) (hb5 : ∀ j, ∃ r : ℝ, b5 j = (r : EReal)) (j : Fin 128) :
    ∃ r : ℝ, hidden xi xj W5 b5 j = (r : EReal) := by
  choose fi hfi using hxi
  choose fj hfj using hxj
  choose fw hfw using hW5
  choose fb hfb using hb5
  -- the real number is the same expression over the real witnesses; products, the sum, the bias and the maximum
  -- with zero all commute with the inclusion of the reals
  refine ⟨max ((∑ k, fi k * fj k * fw k j) + fb j) 0, ?_⟩
  unfold hidden
  simp only [hfi, hfj, hfw, hfb, ← EReal.coe_mul]
  rw [coe_sum, ← EReal.coe_add, ← EReal.coe_zero, ← coe_max]

/-- With a real logit difference `d` the logistic pair is a pair of real numbers: `e = exp (-|d|)` lies in `(0, 1]`,
    so `1 + e` is a nonzero real and each quotient is a product with its reciprocal. -/
private theorem sigmoidRow_coe (h dW : Fin 128 → EReal) (db : EReal) (d : ℝ)
    (hd : (∑ j, h j * dW j) + db = (d : EReal)) (c : Fin 2) :
    sigmoidRow h dW db c =
      (((if c = 0 then
          1 - (if 0 ≤ d then 1 * (1 / (1 + Real.exp (0 - max d (-d))))
               else Real.exp (0 - max d (-d)) * (1 / (1 + Real.exp (0 - max d (-d)))))
        else (if 0 ≤ d then 1 * (1 / (1 + Real.exp (0 - max d (-d))))
              else Real.exp (0 - max d (-d)) * (1 / (1 + Real.exp (0 - max d (-d)))))) : ℝ) : EReal) := by
  have hpos : (1 + Real.exp (0 - max d (-d))) ≠ 0 := (by positivity : (0 : ℝ) < 1 + Real.exp _).ne'
  unfold sigmoidRow
  simp only [hd]
  rw [← EReal.coe_neg, ← coe_max, ← EReal.coe_zero, ← EReal.coe_sub, Ideal.exp_coe, ← EReal.coe_one, ← EReal.coe_add,
    Ideal.div_coe hpos, Ideal.div_coe hpos, ← EReal.coe_mul, ← EReal.coe_mul]
  by_cases h0 : 0 ≤ d
  · have hc : Ideal.cmp CmpFPredicate.oge (d : EReal) ((0 : ℝ) : EReal) = 1#1 := by
      show BitVec.ofBool (decide (((0 : ℝ) : EReal) ≤ (d : EReal))) = 1#1
      rw [decide_eq_true (EReal.coe_le_coe_iff.mpr h0)]; rfl
    rw [hc, select_one, if_pos h0]
    by_cases hc0 : c = 0
    · simp only [if_pos hc0, EReal.coe_sub]
    · simp only [if_neg hc0]
  · have hc : Ideal.cmp CmpFPredicate.oge (d : EReal) ((0 : ℝ) : EReal) = 0#1 := by
      show BitVec.ofBool (decide (((0 : ℝ) : EReal) ≤ (d : EReal))) = 0#1
      rw [decide_eq_false (fun hle => h0 (EReal.coe_le_coe_iff.mp hle))]; rfl
    rw [hc, select_zero, if_neg h0]
    by_cases hc0 : c = 0
    · simp only [if_pos hc0, EReal.coe_sub]
    · simp only [if_neg hc0]

/-- With real logits `L0`, `L1` the softmax pair is a pair of real numbers: the two shifted exponentials are
    positive reals, so is their sum, and the quotient is a product with its reciprocal. -/
private theorem softmaxRow_coe (h : Fin 128 → EReal) (W6 : Fin 128 → Fin 2 → EReal) (b6 : Fin 2 → EReal) (L0 L1 : ℝ)
    (hl0 : (∑ j, h j * W6 j 0) + b6 0 = (L0 : EReal)) (hl1 : (∑ j, h j * W6 j 1) + b6 1 = (L1 : EReal)) (c : Fin 2) :
    softmaxRow h W6 b6 c =
      ((Real.exp ((if c = 0 then L0 else L1) - max L0 L1)
        * (1 / (Real.exp (L0 - max L0 L1) + Real.exp (L1 - max L0 L1))) : ℝ) : EReal) := by
  have hpos : (Real.exp (L0 - max L0 L1) + Real.exp (L1 - max L0 L1)) ≠ 0 :=
    (by positivity : (0 : ℝ) < Real.exp _ + Real.exp _).ne'
  have hc : (∑ j, h j * W6 j c) + b6 c = (((if c = 0 then L0 else L1 : ℝ)) : EReal) := by
    by_cases hc0 : c = 0
    · subst hc0; rw [if_pos rfl]; exact hl0
    · have hc1 : c = 1 := Fin.eq_one_of_ne_zero c hc0
      subst hc1; rw [if_neg (by decide)]; exact hl1
  unfold softmaxRow
  simp only [hl0, hl1, hc]
  rw [← coe_max, ← EReal.coe_sub, ← EReal.coe_sub, ← EReal.coe_sub, Ideal.exp_coe, Ideal.exp_coe, Ideal.exp_coe,
    ← EReal.coe_add, Ideal.div_coe hpos, ← EReal.coe_mul]

/-- The two forms over the reals. With `d = L1 - L0 ≥ 0` the larger logit is `L1`, `|d| = d`, the shifted
    exponentials are `exp (-d)` and `1`; with `d < 0` the larger logit is `L0`, `-|d| = d`, and they are `1` and
    `exp d`. Either way both sides are the same quotient over `1 + exp (-|d|)`. -/
private theorem real_forms (L0 L1 : ℝ) (c : Fin 2) :
    (if c = 0 then
        1 - (if 0 ≤ L1 - L0 then 1 * (1 / (1 + Real.exp (0 - max (L1 - L0) (-(L1 - L0)))))
             else Real.exp (0 - max (L1 - L0) (-(L1 - L0))) * (1 / (1 + Real.exp (0 - max (L1 - L0) (-(L1 - L0))))))
      else (if 0 ≤ L1 - L0 then 1 * (1 / (1 + Real.exp (0 - max (L1 - L0) (-(L1 - L0)))))
            else Real.exp (0 - max (L1 - L0) (-(L1 - L0))) * (1 / (1 + Real.exp (0 - max (L1 - L0) (-(L1 - L0)))))))
      = Real.exp ((if c = 0 then L0 else L1) - max L0 L1)
        * (1 / (Real.exp (L0 - max L0 L1) + Real.exp (L1 - max L0 L1))) := by
  by_cases h0 : 0 ≤ L1 - L0
  · have hm : max L0 L1 = L1 := max_eq_right (by linarith)
    have ha : max (L1 - L0) (-(L1 - L0)) = L1 - L0 := max_eq_left (by linarith)
    have he : L0 - L1 = 0 - (L1 - L0) := by ring
    rw [if_pos h0, hm, ha, sub_self, Real.exp_zero, he]
    have hp : (0 : ℝ) < Real.exp (0 - (L1 - L0)) := Real.exp_pos _
    by_cases hc0 : c = 0
    · rw [if_pos hc0, if_pos hc0, he]; field_simp; ring
    · rw [if_neg hc0, if_neg hc0, sub_self, Real.exp_zero]; field_simp; ring
  · have h0' : L1 - L0 < 0 := not_le.mp h0
    have hm : max L0 L1 = L0 := max_eq_left (by linarith)
    have ha : max (L1 - L0) (-(L1 - L0)) = -(L1 - L0) := max_eq_right (by linarith)
    have he : (0 : ℝ) - -(L1 - L0) = L1 - L0 := by ring
    rw [if_neg h0, hm, ha, sub_self, Real.exp_zero, he]
    have hp : (0 : ℝ) < Real.exp (L1 - L0) := Real.exp_pos _
    by_cases hc0 : c = 0
    · rw [if_pos hc0, if_pos hc0, sub_self, Real.exp_zero]; field_simp; ring
    · rw [if_neg hc0, if_neg hc0]

/-- On real entries the logistic form of the logit difference is the softmax of the two logits. -/
theorem sigmoidRow_eq_softmaxRow (h : Fin 128 → EReal) (W6 : Fin 128 → Fin 2 → EReal) (b6 : Fin 2 → EReal)
    (hh : ∀ j, ∃ r : ℝ, h j = (r : EReal)) (hW6 : ∀ j a, ∃ r : ℝ, W6 j a = (r : EReal))
    (hb6 : ∀ a, ∃ r : ℝ, b6 a = (r : EReal)) (c : Fin 2) :
    sigmoidRow h (fun j => W6 j 1 - W6 j 0) (b6 1 - b6 0) c = softmaxRow h W6 b6 c := by
  choose hr hhr using hh
  choose wr hwr using hW6
  choose br hbr using hb6
  -- each logit is the real number `∑ j, hr j * wr j a + br a`
  have hl : ∀ a : Fin 2, (∑ j, h j * W6 j a) + b6 a = (((∑ j, hr j * wr j a) + br a : ℝ) : EReal) := by
    intro a
    simp only [hhr, hwr, hbr, ← EReal.coe_mul]
    rw [coe_sum, ← EReal.coe_add]
  -- and the logit of the difference weights is the difference of the two logits (distributivity over the reals)
  have hd : (∑ j, h j * (W6 j 1 - W6 j 0)) + (b6 1 - b6 0)
      = ((((∑ j, hr j * wr j 1) + br 1) - ((∑ j, hr j * wr j 0) + br 0) : ℝ) : EReal) := by
    simp only [hhr, hwr, hbr, ← EReal.coe_sub, ← EReal.coe_mul]
    rw [coe_sum, ← EReal.coe_add, EReal.coe_eq_coe_iff]
    simp only [mul_sub, Finset.sum_sub_distrib]
    ring
  rw [sigmoidRow_coe h _ _ _ hd c, softmaxRow_coe h W6 b6 _ _ (hl 0) (hl 1) c, EReal.coe_eq_coe_iff]
  exact real_forms _ _ c

/-- On real arrays the two forms are one function. -/
theorem probsDiff_eq_probs (nf : (⟨2, ![100000, 64]⟩ : Shape).Idx → EReal) (W5 : (⟨2, ![64, 128]⟩ : Shape).Idx → EReal)
    (b5 : (⟨1, ![128]⟩ : Shape).Idx → EReal) (W6 : (⟨2, ![128, 2]⟩ : Shape).Idx → EReal)
    (b6 : (⟨1, ![2]⟩ : Shape).Idx → EReal)
    (hnf : ∀ i, ∃ r : ℝ, nf i = (r : EReal)) (hW5 : ∀ i, ∃ r : ℝ, W5 i = (r : EReal))
    (hb5 : ∀ i, ∃ r : ℝ, b5 i = (r : EReal)) (hW6 : ∀ i, ∃ r : ℝ, W6 i = (r : EReal))
    (hb6 : ∀ i, ∃ r : ℝ, b6 i = (r : EReal)) (v0 v1 : BitVec 32) (c : Fin 2) :
    probsDiff nf W5 b5 W6 b6 v0 v1 c = probs nf W5 b5 W6 b6 v0 v1 c :=
  sigmoidRow_eq_softmaxRow _ _ _
    (hidden_real _ _ _ _ (fun _ => hnf _) (fun _ => hnf _) (fun _ _ => hW5 _) (fun _ => hb5 _))
    (fun _ _ => hW6 _) (fun _ => hb6 _) c

end Cert.EdgeProb

end
-- ==== Proof.PreFacts.lean ====
/-
  What the precondition says of the arguments.
  The precondition is the conjunction of: every entry of each float array has absolute value below +∞, and every
  entry of columns 0 and 1 of each clique array is at least 0 and below 100000. An extended real whose absolute value
  is below +∞ is a real number; the two signed tests are `InRange`.
-/
import proofs.«401710_j41463614276026_3_alg».proof.Pre_finite_inputs
import proofs.«401710_j41463614276026_3_alg».proof.Proof.Gen.Pre_finite_inputs
import proofs.«401710_j41463614276026_3_alg».proof.Proof.Spec
import Idealize.ShloMosaic.PureOps.Ideal.Laws
import Idealize.ShloMosaic.Lib.ReduceAll
import Idealize.ShloMosaic.Lib.StableHlo.Predicate
import Idealize.ShloMosaic.Lib.ValueIdx
import Idealize.ShloMosaic.Lib.Pipeline.Value
import Idealize.ShloMosaic.Lib.ValueLayout

noncomputable section

namespace Cert.PreFacts

open Cert.Pre_finite_inputs Cert.EdgeProb Idealize.ShloMosaic Idealize.ShloMosaic.ValueIdx

/-- The scalar shape has one index. -/
private instance scalarIdxSubsingleton : Subsingleton S_.Idx := ⟨fun _ _ => funext fun d => d.elim0⟩

/-- An extended real whose absolute value max(y, −y) is below +∞ is a real number: −∞ has −(−∞) = +∞, and +∞ is
    itself not below +∞. -/
private theorem real_of_abs_lt_top (y : EReal) (h : max y (-y) < ⊤) : ∃ r : ℝ, y = (r : EReal) := by
  induction y using EReal.rec with
  | bot => simp at h
  | coe r => exact ⟨r, rfl⟩
  | top => simp at h

/-- The word 0x7F800000 is +∞. -/
private theorem inf_bits : Ideal.ofBits .f32 0x7F800000#32 = ⊤ := by simp [Ideal.ofBits, Ideal.ieee]

/-- A float array whose every entry has absolute value below +∞ (the conjunction over all entries is 1) is
    real-valued. -/
private theorem real_of_all {s : Shape} {axes : List (Fin s.rank)} (x : FVec Ideal s .f32)
    (hb : S_.BroadcastsInDim s (![] : Fin 0 → Fin s.rank)) (hr : s.ReducesTo axes S_) (h0 : 0 < S_.numel)
    (e : Host.reduce IntOp.andi
        (cmpf .olt (Host.absf x) (broadcastInDim s ![] hb (constant (F := Ideal) S_ .f32 0x7F800000#32)))
        (constantI S_ 1 1#1) hr h0 ix0 = 1#1) :
    ∀ i, ∃ r : ℝ, x i = (r : EReal) := by
  intro i
  have hi := Host.reduce_andi_all _ _ hr h0 ix0 e i
  rw [cmpf_apply, StableHlo.Predicate.bcast_scalar hb h0] at hi
  have hi' : Ideal.cmp .olt (max (x i) (-(x i))) (Ideal.ofBits .f32 0x7F800000#32) = 1#1 := hi
  rw [inf_bits] at hi'
  unfold Ideal.cmp at hi'
  rw [StableHlo.Predicate.ofBool_eq_one_iff, decide_eq_true_eq] at hi'
  exact real_of_abs_lt_top _ hi'

/-- A clique array whose columns 0 and 1 pass both signed tests at every entry (the conjunction over all entries
    is 1) has both ids of every row in range. -/
private theorem ids_of_all (x : IVec S500000x4 32) (hs : S500000x4.Slices ![0, 0] S500000x2)
    (hb : S_.BroadcastsInDim S500000x2 (![] : Fin 0 → Fin S500000x2.rank)) (hr : S500000x2.ReducesTo [0, 1] S_)
    (h0 : 0 < S_.numel)
    (e : Host.reduce IntOp.andi
        (andi (cmpi .sge (extractStridedSlice S500000x2 ![0, 0] x hs) (broadcastInDim S500000x2 ![] hb (constantI S_ 32 0#32)))
          (cmpi .slt (extractStridedSlice S500000x2 ![0, 0] x hs) (broadcastInDim S500000x2 ![] hb (constantI S_ 32 100000#32))))
        (constantI S_ 1 1#1) hr h0 ix0 = 1#1) :
    ∀ r : Fin 500000, InRange (x (ix2 r (0 : Fin 4))) ∧ InRange (x (ix2 r (1 : Fin 4))) := by
  have key : ∀ (r : Fin 500000) (j : Fin 2) (k : Fin 4), k.val = 0 + j.val → InRange (x (ix2 r k)) := by
    intro r j k hk
    have hi := Host.reduce_andi_all _ _ hr h0 ix0 e (ix2 r j)
    have hi' : IntOp.andi
        (IntOp.cmpi .sge (extractStridedSlice S500000x2 ![0, 0] x hs (ix2 r j))
          (broadcastInDim S500000x2 ![] hb (constantI S_ 32 0#32) (ix2 r j)))
        (IntOp.cmpi .slt (extractStridedSlice S500000x2 ![0, 0] x hs (ix2 r j))
          (broadcastInDim S500000x2 ![] hb (constantI S_ 32 100000#32) (ix2 r j))) = 1#1 := hi
    rw [StableHlo.Predicate.bcast_scalar hb h0, StableHlo.Predicate.bcast_scalar hb h0,
      slice2_axis1_apply 0 x hs r j k hk] at hi'
    exact IntOp.andi_eq_one.1 hi'
  intro r
  exact ⟨key r 0 0 rfl, key r 1 1 rfl⟩

/-- From the precondition: the node table, both layers' weights and both biases are real, and ids 0 and 1 of every
    row of both clique arrays are rows of the table. (The first float argument is not read by either program.) -/
theorem of_pre (x0 : FVec Ideal S100000x64 .f32) (x1 x2 : IVec S500000x4 32) (x3 : FVec Ideal S100000x64 .f32)
    (x4 : FVec Ideal S64x128 .f32) (x5 : FVec Ideal S128 .f32) (x6 : FVec Ideal S128x2 .f32) (x7 : FVec Ideal S2 .f32)
    (h : Cert.Pre_finite_inputs.fn (F := Ideal) x0 x1 x2 x3 x4 x5 x6 x7 = fun _ => 1#1) :
    (∀ i, ∃ r : ℝ, x3 i = (r : EReal)) ∧ (∀ i, ∃ r : ℝ, x4 i = (r : EReal)) ∧ (∀ i, ∃ r : ℝ, x5 i = (r : EReal))
      ∧ (∀ i, ∃ r : ℝ, x6 i = (r : EReal)) ∧ (∀ i, ∃ r : ℝ, x7 i = (r : EReal))
      ∧ (∀ r : Fin 500000, InRange (x1 (ix2 r (0 : Fin 4))) ∧ InRange (x1 (ix2 r (1 : Fin 4))))
      ∧ (∀ r : Fin 500000, InRange (x2 (ix2 r (0 : Fin 4))) ∧ InRange (x2 (ix2 r (1 : Fin 4)))) := by
  have h0 := congrFun h ix0
  dsimp only [fn, fn_part1, fn_part2] at h0
  obtain ⟨h36, e2⟩ := IntOp.andi_eq_one.1 h0
  obtain ⟨h28, e1⟩ := IntOp.andi_eq_one.1 h36
  obtain ⟨h23, e7⟩ := IntOp.andi_eq_one.1 h28
  obtain ⟨h18, e6⟩ := IntOp.andi_eq_one.1 h23
  obtain ⟨h13, e5⟩ := IntOp.andi_eq_one.1 h18
  obtain ⟨h8, e4⟩ := IntOp.andi_eq_one.1 h13
  obtain ⟨-, e3⟩ := IntOp.andi_eq_one.1 h8
  exact ⟨real_of_all x3 _ _ _ e3, real_of_all x4 _ _ _ e4, real_of_all x5 _ _ _ e5, real_of_all x6 _ _ _ e6,
    real_of_all x7 _ _ _ e7, ids_of_all x1 _ _ _ _ e1, ids_of_all x2 _ _ _ _ e2⟩

end Cert.PreFacts

end
-- ==== Proof.KernelPay.lean ====
/-
  The kernel body's one stored value, read at an index.
  The body multiplies the two row blocks entry by entry, applies the first layer (a product with the weight block
  into a zero accumulator, the bias row added, the maximum with zero), forms the logit difference (a product with
  the one-column weight difference, the scalar bias difference added), and stores the pair `(1 - p, p)`, `p` the
  logistic function of the difference in its overflow-free form. At row `r` and column `c` this is `sigmoidRow` of
  the hidden units of row `r` of the two blocks.
-/
import proofs.«401710_j41463614276026_3_alg».proof.Proof.Gen.KernelIdeal.Skeleton
import proofs.«401710_j41463614276026_3_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Pay

open Cert.KernelIdeal Cert.KernelIdeal.Gen Cert.EdgeProb Idealize.ShloMosaic Idealize.ShloMosaic.ValueIdx

/-- The bit pattern of the number one denotes `1`. -/
private theorem ofBits_one_f32 : Ideal.ofBits .f32 0x3F800000#32 = 1 := by
  simp [Ideal.ofBits, Ideal.ieee, -EReal.coe_mul]; norm_num

/-! ## The first product's operand indices -/

private theorem lhs_mm1_0 (i : S4000x128.Idx) (q : dot_S4000x64_S64x128_S4000x128_1_0_0_1_n_n.contr.Idx) :
    (dot_S4000x64_S64x128_S4000x128_1_0_0_1_n_n.lhsIdx i q 0).val = (i 0).val := by
  unfold DotDims.lhsIdx
  rw [dif_neg (show ¬(0 : Fin S4000x64.rank) ∈ dot_S4000x64_S64x128_S4000x128_1_0_0_1_n_n.lhsBatch by decide), dif_pos (show (0 : Fin S4000x64.rank) ∈ dot_S4000x64_S64x128_S4000x128_1_0_0_1_n_n.lhsNonContracting by decide)]
  rfl
private theorem lhs_mm1_1 (i : S4000x128.Idx) (q : dot_S4000x64_S64x128_S4000x128_1_0_0_1_n_n.contr.Idx) :
    (dot_S4000x64_S64x128_S4000x128_1_0_0_1_n_n.lhsIdx i q 1).val = (q ⟨0, by decide⟩).val :=
  dot_S4000x64_S64x128_S4000x128_1_0_0_1_n_n.lhsIdx_val_of_single rfl i q
private theorem rhs_mm1_0 (i : S4000x128.Idx) (q : dot_S4000x64_S64x128_S4000x128_1_0_0_1_n_n.contr.Idx) :
    (dot_S4000x64_S64x128_S4000x128_1_0_0_1_n_n.rhsIdx i q 0).val = (q ⟨0, by decide⟩).val :=
  dot_S4000x64_S64x128_S4000x128_1_0_0_1_n_n.rhsIdx_val_of_single rfl i q
private theorem rhs_mm1_1 (i : S4000x128.Idx) (q : dot_S4000x64_S64x128_S4000x128_1_0_0_1_n_n.contr.Idx) :
    (dot_S4000x64_S64x128_S4000x128_1_0_0_1_n_n.rhsIdx i q 1).val = (i 1).val := by
  unfold DotDims.rhsIdx
  rw [dif_neg (show ¬(1 : Fin S64x128.rank) ∈ dot_S4000x64_S64x128_S4000x128_1_0_0_1_n_n.rhsBatch by decide), dif_pos (show (1 : Fin S64x128.rank) ∈ dot_S4000x64_S64x128_S4000x128_1_0_0_1_n_n.rhsNonContracting by decide)]
  rfl

/-- The first product into a zero accumulator, at row `r` and column `j`: the sum over the 64 contracted positions. -/
private theorem mm1_apply (y : FVec Ideal S4000x64 .f32) (w : FVec Ideal S64x128 .f32) (r : Fin 4000) (j : Fin 128) :
    matmul dot_S4000x64_S64x128_S4000x128_1_0_0_1_n_n none y w (constant S4000x128 .f32 0x00000000#32) (ix2 r j)
      = ∑ k : Fin 64, y (ix2 r k) * w (ix2 k j) := by
  simp only [matmul]
  rw [Ideal.matmul_constant_zero_apply, ← Equiv.sum_comp (contrEquiv1 dot_S4000x64_S64x128_S4000x128_1_0_0_1_n_n 64 rfl rfl).symm]
  refine Finset.sum_congr rfl fun k _ => ?_
  have hk := contrEquiv1_symm_val dot_S4000x64_S64x128_S4000x128_1_0_0_1_n_n 64 rfl rfl k
  have el : dot_S4000x64_S64x128_S4000x128_1_0_0_1_n_n.lhsIdx (ix2 r j) ((contrEquiv1 dot_S4000x64_S64x128_S4000x128_1_0_0_1_n_n 64 rfl rfl).symm k) = ix2 r k := funext fun a => Fin.ext (by
    match a with
    | ⟨0, _⟩ => exact lhs_mm1_0 _ _
    | ⟨1, _⟩ => exact (lhs_mm1_1 _ _).trans hk)
  have er : dot_S4000x64_S64x128_S4000x128_1_0_0_1_n_n.rhsIdx (ix2 r j) ((contrEquiv1 dot_S4000x64_S64x128_S4000x128_1_0_0_1_n_n 64 rfl rfl).symm k) = ix2 k j := funext fun a => Fin.ext (by
    match a with
    | ⟨0, _⟩ => exact (rhs_mm1_0 _ _).trans hk
    | ⟨1, _⟩ => exact rhs_mm1_1 _ _)
  rw [el, er]

/-! ## The second product's operand indices -/

private theorem lhs_mm2_0 (i : S4000x1.Idx) (q : dot_S4000x128_S128x1_S4000x1_1_0_0_1_n_n.contr.Idx) :
    (dot_S4000x128_S128x1_S4000x1_1_0_0_1_n_n.lhsIdx i q 0).val = (i 0).val := by
  unfold DotDims.lhsIdx
  rw [dif_neg (show ¬(0 : Fin S4000x128.rank) ∈ dot_S4000x128_S128x1_S4000x1_1_0_0_1_n_n.lhsBatch by decide), dif_pos (show (0 : Fin S4000x128.rank) ∈ dot_S4000x128_S128x1_S4000x1_1_0_0_1_n_n.lhsNonContracting by decide)]
  rfl
private theorem lhs_mm2_1 (i : S4000x1.Idx) (q : dot_S4000x128_S128x1_S4000x1_1_0_0_1_n_n.contr.Idx) :
    (dot_S4000x128_S128x1_S4000x1_1_0_0_1_n_n.lhsIdx i q 1).val = (q ⟨0, by decide⟩).val :=
  dot_S4000x128_S128x1_S4000x1_1_0_0_1_n_n.lhsIdx_val_of_single rfl i q
private theorem rhs_mm2_0 (i : S4000x1.Idx) (q : dot_S4000x128_S128x1_S4000x1_1_0_0_1_n_n.contr.Idx) :
    (dot_S4000x128_S128x1_S4000x1_1_0_0_1_n_n.rhsIdx i q 0).val = (q ⟨0, by decide⟩).val :=
  dot_S4000x128_S128x1_S4000x1_1_0_0_1_n_n.rhsIdx_val_of_single rfl i q
private theorem rhs_mm2_1 (i : S4000x1.Idx) (q : dot_S4000x128_S128x1_S4000x1_1_0_0_1_n_n.contr.Idx) :
    (dot_S4000x128_S128x1_S4000x1_1_0_0_1_n_n.rhsIdx i q 1).val = (i 1).val := by
  unfold DotDims.rhsIdx
  rw [dif_neg (show ¬(1 : Fin S128x1.rank) ∈ dot_S4000x128_S128x1_S4000x1_1_0_0_1_n_n.rhsBatch by decide), dif_pos (show (1 : Fin S128x1.rank) ∈ dot_S4000x128_S128x1_S4000x1_1_0_0_1_n_n.rhsNonContracting by decide)]
  rfl

/-- The second product into a zero accumulator, at row `r` of its one column: the sum over the 128 contracted
    positions. -/
private theorem mm2_apply (y : FVec Ideal S4000x128 .f32) (w : FVec Ideal S128x1 .f32) (r : Fin 4000) (c : Fin 1) :
    matmul dot_S4000x128_S128x1_S4000x1_1_0_0_1_n_n none y w (constant S4000x1 .f32 0x00000000#32) (ix2 r c)
      = ∑ k : Fin 128, y (ix2 r k) * w (ix2 k c) := by
  simp only [matmul]
  rw [Ideal.matmul_constant_zero_apply, ← Equiv.sum_comp (contrEquiv1 dot_S4000x128_S128x1_S4000x1_1_0_0_1_n_n 128 rfl rfl).symm]
  refine Finset.sum_congr rfl fun k _ => ?_
  have hk := contrEquiv1_symm_val dot_S4000x128_S128x1_S4000x1_1_0_0_1_n_n 128 rfl rfl k
  have el : dot_S4000x128_S128x1_S4000x1_1_0_0_1_n_n.lhsIdx (ix2 r c) ((contrEquiv1 dot_S4000x128_S128x1_S4000x1_1_0_0_1_n_n 128 rfl rfl).symm k) = ix2 r k := funext fun a => Fin.ext (by
    match a with
    | ⟨0, _⟩ => exact lhs_mm2_0 _ _
    | ⟨1, _⟩ => exact (lhs_mm2_1 _ _).trans hk)
  have er : dot_S4000x128_S128x1_S4000x1_1_0_0_1_n_n.rhsIdx (ix2 r c) ((contrEquiv1 dot_S4000x128_S128x1_S4000x1_1_0_0_1_n_n 128 rfl rfl).symm k) = ix2 k c := funext fun a => Fin.ext (by
    match a with
    | ⟨0, _⟩ => exact (rhs_mm2_0 _ _).trans hk
    | ⟨1, _⟩ => exact rhs_mm2_1 _ _)
  rw [el, er]

/-! ## The layers -/

/-- The first layer at row `r` and unit `j`: the entrywise product of the two row blocks against column `j` of the
    weight block, the bias row's entry added, the maximum with zero taken. -/
private theorem hid_apply (x0 x1 : Vec Ideal S4000x64 .f32) (x2 : Vec Ideal S64x128 .f32) (x3 : Vec Ideal S1x128 .f32)
    (r : Fin 4000) (j : Fin 128) :
    maximumf
        (addf
          (matmul (φ₁ := .f32) (φ₂ := .f32) dot_S4000x64_S64x128_S4000x128_1_0_0_1_n_n none
            (mulf (φ := .f32) (shapeCast S4000x64 x0 shapeCasts_S4000x64_S4000x64)
              (shapeCast S4000x64 x1 shapeCasts_S4000x64_S4000x64))
            x2 (constant S4000x128 .f32 0x00000000#32))
          (broadcastTo S4000x128 (shapeCast S1x128 x3 shapeCasts_S1x128_S1x128) broadcasts_S1x128_S4000x128))
        (broadcast S4000x128 (Scalar.ofBits (F := Ideal) .f32 0x00000000#32)) (ix2 r j)
      = hidden (fun k => x0 (ix2 r k)) (fun k => x1 (ix2 r k)) (fun k j => x2 (ix2 k j))
          (fun j => x3 (ix2 (0 : Fin 1) j)) j := by
  rw [maximumf_apply, addf_apply, mm1_apply, broadcastTo_1b_ab_apply, broadcast_apply]
  simp only [shapeCast_self, mulf_apply]
  show max (_ + _) (Ideal.ofBits .f32 0x00000000#32) = _
  rw [Ideal.ofBits_zero_f32]
  rfl

/-- The logit difference at row `r`: the hidden row against the one weight column, the scalar bias added. -/
private theorem dif_apply (h : FVec Ideal S4000x128 .f32) (x4 : Vec Ideal S128x1 .f32) (x5 : Vec Ideal S1x1 .f32) (r : Fin 4000) :
    addf
        (matmul (φ₁ := .f32) (φ₂ := .f32) dot_S4000x128_S128x1_S4000x1_1_0_0_1_n_n none h
          (shapeCast S128x1 x4 shapeCasts_S128x1_S128x1)
          (constant S4000x1 .f32 0x00000000#32))
        (broadcastTo S4000x1 (shapeCast S1x1 x5 shapeCasts_S1x1_S1x1) broadcasts_S1x1_S4000x1) (ix2 r (0 : Fin 1))
      = (∑ j : Fin 128, h (ix2 r j) * x4 (ix2 j (0 : Fin 1))) + x5 (ix2 (0 : Fin 1) (0 : Fin 1)) := by
  rw [addf_apply, mm2_apply, broadcastTo_1b_ab_apply]
  simp only [shapeCast_self]

/-- The logistic function of a difference `d` in its overflow-free form, entry by entry: with `e = exp (0 - |d|)`,
    `1 / (1 + e)` where `d ≥ 0` and `e / (1 + e)` elsewhere. -/
private theorem prob_apply (d : FVec Ideal S4000x1 .f32) (i : S4000x1.Idx) :
    select (cmpf .oge d (broadcast S4000x1 (Scalar.ofBits (F := Ideal) .f32 0x00000000#32)))
        (divf (broadcast S4000x1 (Scalar.ofBits (F := Ideal) .f32 0x3F800000#32))
          (addf (broadcast S4000x1 (Scalar.ofBits (F := Ideal) .f32 0x3F800000#32))
            (exp (subf (broadcast S4000x1 (Scalar.ofBits (F := Ideal) .f32 0x00000000#32)) (absf d)))))
        (divf (exp (subf (broadcast S4000x1 (Scalar.ofBits (F := Ideal) .f32 0x00000000#32)) (absf d)))
          (addf (broadcast S4000x1 (Scalar.ofBits (F := Ideal) .f32 0x3F800000#32))
            (exp (subf (broadcast S4000x1 (Scalar.ofBits (F := Ideal) .f32 0x00000000#32)) (absf d))))) i
      = Scalar.select (Ideal.cmp .oge (d i) 0)
          (Ideal.div 1 (1 + Ideal.exp (0 - max (d i) (-(d i)))))
          (Ideal.div (Ideal.exp (0 - max (d i) (-(d i)))) (1 + Ideal.exp (0 - max (d i) (-(d i))))) := by
  show Scalar.select (Ideal.cmp .oge (d i) (Ideal.ofBits .f32 0x00000000#32))
      (Ideal.div (Ideal.ofBits .f32 0x3F800000#32)
        (Ideal.ofBits .f32 0x3F800000#32 + Ideal.exp (Ideal.ofBits .f32 0x00000000#32 - max (d i) (-(d i)))))
      (Ideal.div (Ideal.exp (Ideal.ofBits .f32 0x00000000#32 - max (d i) (-(d i))))
        (Ideal.ofBits .f32 0x3F800000#32 + Ideal.exp (Ideal.ofBits .f32 0x00000000#32 - max (d i) (-(d i))))) = _
  rw [Ideal.ofBits_zero_f32, ofBits_one_f32]

/-- The two columns laid side by side, at row `r` and column `c`: column 0 reads `1 - p`, column 1 reads `p`. -/
private theorem cat_apply (p : FVec Ideal S4000x1 .f32) (r : Fin 4000) (c : Fin 2) :
    concatenate S4000x2 1
        [⟨S4000x1, subf (φ := .f32) (broadcast S4000x1 (Scalar.ofBits (F := Ideal) .f32 0x3F800000#32)) p⟩, ⟨S4000x1, p⟩]
        concatenates_S4000x1_S4000x1_S4000x2_d1 (ix2 r c)
      = if c = 0 then 1 - p (ix2 r (0 : Fin 1)) else p (ix2 r (0 : Fin 1)) := by
  match c with
  | ⟨0, h0⟩ =>
    rw [concatenate_pair_apply_left (t := S4000x2) (s₁ := S4000x1) (s₂ := S4000x1) (1 : Fin S4000x2.rank) _ _ _ _ rfl (ix2 r (0 : Fin 1))
      (fun b => by match b with | ⟨0, _⟩ => rfl | ⟨1, _⟩ => rfl), if_pos (show (⟨0, h0⟩ : Fin 2) = 0 from rfl), subf_apply, broadcast_apply]
    show Ideal.ofBits .f32 0x3F800000#32 - _ = _
    rw [ofBits_one_f32]
  | ⟨1, h1⟩ =>
    rw [concatenate_pair_apply_right (t := S4000x2) (s₁ := S4000x1) (s₂ := S4000x1) (1 : Fin S4000x2.rank) _ _ _ _ rfl rfl (ix2 r (0 : Fin 1))
      (fun b hb => by match b with | ⟨0, _⟩ => rfl | ⟨1, _⟩ => exact absurd rfl hb) rfl,
      if_neg (fun h : (⟨1, h1⟩ : Fin 2) = 0 => absurd (congrArg Fin.val h) Nat.one_ne_zero)]

/-- The stored block at `(r, c)`: the logistic pair of row `r`'s hidden units against the weight-difference column
    and the bias difference. -/
theorem pay_apply (x0 x1 : Vec Ideal S4000x64 .f32) (x2 : Vec Ideal S64x128 .f32) (x3 : Vec Ideal S1x128 .f32)
    (x4 : Vec Ideal S128x1 .f32) (x5 : Vec Ideal S1x1 .f32) (r : Fin 4000) (c : Fin 2) :
    (k0_pay1 (F := Ideal) x0 x1 x2 x3 x4 x5 : S4000x2.Idx → EReal) (ix2 r c)
      = sigmoidRow
          (hidden (fun k => x0 (ix2 r k)) (fun k => x1 (ix2 r k)) (fun k j => x2 (ix2 k j))
            (fun j => x3 (ix2 (0 : Fin 1) j)))
          (fun j => x4 (ix2 j (0 : Fin 1))) (x5 (ix2 (0 : Fin 1) (0 : Fin 1))) c := by
  unfold k0_pay1
  rw [cat_apply, prob_apply, dif_apply]
  simp only [hid_apply]
  rfl

end Cert.KernelIdeal.Pay

end
-- ==== Proof.LibIndex.lean ====
/-
  Reading a row gather and an accumulating row scatter at an index.
  A row gather takes row `idx[t]` of a two-axis operand for every `t`: the start index is read signed and clamped
  into the operand's rows. An accumulating scatter adds update row `t` into operand row `idx[t]`: the start index
  is read signed and NOT clamped, and an update whose row is outside the operand is dropped; so at the ideal
  instance the result at row `n` is the operand's entry plus the sum of the updates over the `t` with `idx[t] = n`.
-/
import Idealize.ShloMosaic.PureOps.Ideal
import Idealize.ShloMosaic.Lib.ValueIdx

noncomputable section

namespace Cert.LibIndex

open Idealize.ShloMosaic Idealize.ShloMosaic.ValueIdx

/-- The dimension numbers of a row gather: operand `[N, C]`, indices `[T, 1]`, result `[T, C]`; result row `t` is the
    operand's row at the start index `idx[t, 0]`, whole (slice sizes `[1, C]`, the row axis collapsed). -/
abbrev rowGatherDims (N T C : Nat)
    (wf : GatherDims.WF ⟨2, ![N, C]⟩ ⟨2, ![T, 1]⟩ ⟨2, ![T, C]⟩ [1] [0] [] [0] [] 1 ![1, C]) :
    GatherDims ⟨2, ![N, C]⟩ ⟨2, ![T, 1]⟩ ⟨2, ![T, C]⟩ where
  offsetDims := [1]
  collapsedSliceDims := [0]
  operandBatchingDims := []
  startIndicesBatchingDims := []
  startIndexMap := [0]
  indexVectorDim := 1
  sliceSizes := ![1, C]
  wf := wf

section Gather
variable {N T C w : Nat}
  (wf : GatherDims.WF ⟨2, ![N, C]⟩ ⟨2, ![T, 1]⟩ ⟨2, ![T, C]⟩ [1] [0] [] [0] [] 1 ![1, C])

/-- Result position `(t, j)` reads its start index at `(t, 0)`: the result's one batch axis (axis 0) supplies the
    indices' axis 0, and the index vector (axis 1, of extent 1) has only the component `0`. -/
theorem rowGather_siIdx (t : Fin T) (j : Fin C) (c : Fin (rowGatherDims N T C wf).startIndexMap.length) :
    (rowGatherDims N T C wf).siIdx (ix2 t j) c = ix2 t (0 : Fin 1) := by
  funext b
  refine Fin.ext ?_
  match b with
  | ⟨0, _⟩ => rfl
  | ⟨1, _⟩ =>
    have hc : c.val < 1 := c.isLt
    show c.val = 0
    omega

/-- On the row axis the slice starts at the start index read signed and clamped into `[0, N - 1]`: the axis is the one
    the start index map names, and the slice there has one row. -/
theorem rowGather_row_start (idx : IVec ⟨2, ![T, 1]⟩ w) (t : Fin T) (j : Fin C) :
    (rowGatherDims N T C wf).start (ix2 t j) idx 0 = min (idx (ix2 t (0 : Fin 1))).toInt.toNat (N - 1) := by
  unfold GatherDims.start
  rw [dif_pos (show (0 : Fin 2) ∈ (rowGatherDims N T C wf).startIndexMap from List.mem_singleton.mpr rfl),
    rowGather_siIdx]
  rfl

/-- The row axis is collapsed, so the result gives it no offset. -/
theorem rowGather_row_off (t : Fin T) (j : Fin C) : (rowGatherDims N T C wf).offCoord (ix2 t j) 0 = 0 :=
  GatherDims.offCoord_eq_zero _ _ _ (fun h => ((GatherDims.mem_sKept _ _).mp h).1 (List.mem_singleton.mpr rfl))

/-- The column axis is not named by the start index map: its slice starts at `0`. -/
theorem rowGather_col_start (idx : IVec ⟨2, ![T, 1]⟩ w) (t : Fin T) (j : Fin C) :
    (rowGatherDims N T C wf).start (ix2 t j) idx 1 = 0 := by
  unfold GatherDims.start
  rw [dif_neg]
  intro h
  exact absurd (congrArg Fin.val (List.mem_singleton.mp h)) Nat.one_ne_zero

/-- The column axis is the operand's one kept axis, read by the result's one offset axis (axis 1): the offset is `j`. -/
theorem rowGather_col_off (t : Fin T) (j : Fin C) :
    (rowGatherDims N T C wf).offCoord (ix2 t j) 1 = j.val := rfl

end Gather

/-- THE ROW GATHER READ AT `(t, j)`: the operand at row `idx[t, 0]` (read signed, clamped into `[0, N − 1]`), column `j`. -/
theorem rowGather_apply {α : Type} {N T C w : Nat} (hN : 0 < N)
    (wf : GatherDims.WF ⟨2, ![N, C]⟩ ⟨2, ![T, 1]⟩ ⟨2, ![T, C]⟩ [1] [0] [] [0] [] 1 ![1, C])
    (x : (⟨2, ![N, C]⟩ : Shape).Idx → α) (idx : IVec ⟨2, ![T, 1]⟩ w) (t : Fin T) (j : Fin C) :
    Host.gather (rowGatherDims N T C wf) x idx (ix2 t j)
      = x (ix2 (⟨min (idx (ix2 t (0 : Fin 1))).toInt.toNat (N - 1), by omega⟩ : Fin N) j) := by
  -- the gather reads the operand at the position whose coordinate on each axis is
  -- slice start + batching coordinate + offset; there is no batching axis, so the middle term is 0 on both axes
  have hb : ∀ a, (rowGatherDims N T C wf).batchCoord (ix2 t j) a = 0 :=
    fun a => GatherDims.batchCoord_eq_zero _ _ a List.not_mem_nil
  unfold Host.gather
  congr 1
  funext a
  refine Fin.ext ?_
  match a with
  | ⟨0, _⟩ =>
    -- row axis: clamped start index + 0 + 0
    show (rowGatherDims N T C wf).start (ix2 t j) idx 0 + (rowGatherDims N T C wf).batchCoord (ix2 t j) 0
        + (rowGatherDims N T C wf).offCoord (ix2 t j) 0 = min (idx (ix2 t (0 : Fin 1))).toInt.toNat (N - 1)
    rw [hb, rowGather_row_off, rowGather_row_start]
    rfl
  | ⟨1, _⟩ =>
    -- column axis: 0 + 0 + j
    show (rowGatherDims N T C wf).start (ix2 t j) idx 1 + (rowGatherDims N T C wf).batchCoord (ix2 t j) 1
        + (rowGatherDims N T C wf).offCoord (ix2 t j) 1 = j.val
    rw [hb, rowGather_col_off, rowGather_col_start]
    omega

/-! ## Accumulating scatters -/

/-- An update at `j` lands on operand position `i` exactly when, on every operand axis, its (unclamped, signed) window
    start plus its window coordinate is `i`'s coordinate: the landing position exists when that sum is inside the
    operand on every axis, and then is that sum; and a coordinate of `i` is inside the operand. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i hin
    rw [Option.some.injEq]
    constructor
    · intro he a
      have h1 := hin a
      have h2 : (d.start j idx a + (d.window j a : Int)).toNat = (i a).val := by rw [← he]
      omega
    · intro hall
      funext a
      refine Fin.ext ?_
      have h1 := hall a
      show (d.start j idx a + (d.window j a : Int)).toNat = (i a).val
      omega
  · rename_i hout
    constructor
    · intro he
      cases he
    · intro hall
      refine absurd (fun a => ?_) hout
      have h1 := hall a
      have h2 := (i a).isLt
      omega

/-- The dimension numbers of an accumulating row scatter: operand `[N, H]`, indices `[T, 1]`, updates `[T, H]`; update
    row `t` goes to operand row `idx[t, 0]`. -/
abbrev rowScatterDims (N T H : Nat)
    (wf : ScatterDims.WF ⟨2, ![N, H]⟩ ⟨2, ![T, 1]⟩ ⟨2, ![T, H]⟩ [1] [0] [0] 1) :
    ScatterDims ⟨2, ![N, H]⟩ ⟨2, ![T, 1]⟩ ⟨2, ![T, H]⟩ where
  updateWindowDims := [1]
  insertedWindowDims := [0]
  scatterDimsToOperandDims := [0]
  indexVectorDim := 1
  wf := wf

section RowScatter
variable {N T H w : Nat} (wf : ScatterDims.WF ⟨2, ![N, H]⟩ ⟨2, ![T, 1]⟩ ⟨2, ![T, H]⟩ [1] [0] [0] 1)

/-- Update position `(t, k)` reads its start index at `(t, 0)`: the updates' one scatter axis (axis 0) supplies the
    indices' axis 0, and the index vector (axis 1, of extent 1) has only the component `0`. -/
theorem rowScatter_siIdx (t : Fin T) (k : Fin H) (c : Fin (rowScatterDims N T H wf).scatterDimsToOperandDims.length) :
    (rowScatterDims N T H wf).siIdx (ix2 t k) c = ix2 t (0 : Fin 1) := by
  funext b
  refine Fin.ext ?_
  match b with
  | ⟨0, _⟩ => rfl
  | ⟨1, _⟩ =>
    have hc : c.val < 1 := c.isLt
    show c.val = 0
    omega

/-- On the row axis the window starts at the start index, read signed and left as it is. -/
theorem rowScatter_row_start (idx : IVec ⟨2, ![T, 1]⟩ w) (t : Fin T) (k : Fin H) :
    (rowScatterDims N T H wf).start (ix2 t k) idx 0 = (idx (ix2 t (0 : Fin 1))).toInt := by
  unfold ScatterDims.start
  rw [dif_pos (show (0 : Fin 2) ∈ (rowScatterDims N T H wf).scatterDimsToOperandDims from List.mem_singleton.mpr rfl),
    rowScatter_siIdx]

/-- The row axis is the inserted one: the update has no window coordinate there. -/
theorem rowScatter_row_window (t : Fin T) (k : Fin H) : (rowScatterDims N T H wf).window (ix2 t k) 0 = 0 := rfl

/-- The column axis is not a scattered axis: the window starts at `0` there. -/
theorem rowScatter_col_start (idx : IVec ⟨2, ![T, 1]⟩ w) (t : Fin T) (k : Fin H) :
    (rowScatterDims N T H wf).start (ix2 t k) idx 1 = 0 := by
  unfold ScatterDims.start
  rw [dif_neg]
  intro h
  exact absurd (congrArg Fin.val (List.mem_singleton.mp h)) Nat.one_ne_zero

/-- The column axis is the operand's one kept axis, filled by the updates' one window axis (axis 1): the window
    coordinate there is the update's column. -/
theorem rowScatter_col_window (t : Fin T) (k : Fin H) : (rowScatterDims N T H wf).window (ix2 t k) 1 = k.val := rfl

/-- Update `(t, k)` lands on operand position `(n, h)` exactly when its start index, read signed, is `n` and its
    column is `h`. -/
theorem rowScatter_lands_iff (idx : IVec ⟨2, ![T, 1]⟩ w) (t : Fin T) (k : Fin H) (n : Fin N) (h : Fin H) :
    (rowScatterDims N T H wf).resultIdx? (ix2 t k) idx = some (ix2 n h)
      ↔ (idx (ix2 t (0 : Fin 1))).toInt = (n.val : Int) ∧ k = h := by
  rw [resultIdx?_eq_some_iff]
  constructor
  · intro hall
    have h0 := hall 0
    have h1 := hall 1
    rw [rowScatter_row_start, rowScatter_row_window] at h0
    rw [rowScatter_col_start, rowScatter_col_window] at h1
    have h0' : (idx (ix2 t (0 : Fin 1))).toInt + ((0 : Nat) : Int) = (n.val : Int) := h0
    have h1' : (0 : Int) + (k.val : Int) = (h.val : Int) := h1
    exact ⟨by omega, Fin.ext (by omega)⟩
  · rintro ⟨h0, rfl⟩ a
    match a with
    | ⟨0, _⟩ =>
      show (rowScatterDims N T H wf).start (ix2 t k) idx 0 + (((rowScatterDims N T H wf).window (ix2 t k) 0 : Nat) : Int)
        = (n.val : Int)
      rw [rowScatter_row_start, rowScatter_row_window]
      omega
    | ⟨1, _⟩ =>
      show (rowScatterDims N T H wf).start (ix2 t k) idx 1 + (((rowScatterDims N T H wf).window (ix2 t k) 1 : Nat) : Int)
        = (k.val : Int)
      rw [rowScatter_col_start, rowScatter_col_window]
      omega

end RowScatter

/-- THE ACCUMULATING ROW SCATTER READ AT `(n, h)`, at the ideal instance: the operand's entry plus the updates' entries
    `(t, h)` over the rows `t` whose start index, read signed, is `n`. -/
theorem rowScatterAdd_apply {N T H w : Nat}
    (wf : ScatterDims.WF ⟨2, ![N, H]⟩ ⟨2, ![T, 1]⟩ ⟨2, ![T, H]⟩ [1] [0] [0] 1)
    (x : (⟨2, ![N, H]⟩ : Shape).Idx → EReal) (idx : IVec ⟨2, ![T, 1]⟩ w) (upd : (⟨2, ![T, H]⟩ : Shape).Idx → EReal)
    (n : Fin N) (h : Fin H) :
    Ideal.hostScatterAdd (rowScatterDims N T H wf) x idx upd (ix2 n h)
      = x (ix2 n h) + ∑ t ∈ Finset.univ.filter (fun t : Fin T => (idx (ix2 t (0 : Fin 1))).toInt = (n.val : Int)), upd (ix2 t h) := by
  unfold Ideal.hostScatterAdd
  congr 1
  -- the updates landing on (n, h) are the (t, h) with idx[t] = n: re-index their sum by the row t
  refine Finset.sum_nbij' (fun y => (y 0 : Fin T)) (fun t => ix2 t h) ?_ ?_ ?_ ?_ ?_
  · intro y hy
    obtain ⟨t, k, rfl⟩ : ∃ t k, y = ix2 t k := ⟨y 0, y 1, eq_ix2 y⟩
    exact Finset.mem_filter.mpr
      ⟨Finset.mem_univ _, ((rowScatter_lands_iff wf idx t k n h).mp (Finset.mem_filter.mp hy).2).1⟩
  · intro t ht
    exact Finset.mem_filter.mpr
      ⟨Finset.mem_univ _, (rowScatter_lands_iff wf idx t h n h).mpr ⟨(Finset.mem_filter.mp ht).2, rfl⟩⟩
  · intro y hy
    obtain ⟨t, k, rfl⟩ : ∃ t k, y = ix2 t k := ⟨y 0, y 1, eq_ix2 y⟩
    obtain ⟨_, rfl⟩ := (rowScatter_lands_iff wf idx t k n h).mp (Finset.mem_filter.mp hy).2
    rfl
  · intro t _
    rfl
  · intro y hy
    obtain ⟨t, k, rfl⟩ : ∃ t k, y = ix2 t k := ⟨y 0, y 1, eq_ix2 y⟩
    obtain ⟨_, rfl⟩ := (rowScatter_lands_iff wf idx t k n h).mp (Finset.mem_filter.mp hy).2
    rfl

/-- The dimension numbers of an accumulating scatter of scalars: operand `[N]`, indices `[T, 1]`, updates `[T]`. -/
abbrev vecScatterDims (N T : Nat)
    (wf : ScatterDims.WF ⟨1, ![N]⟩ ⟨2, ![T, 1]⟩ ⟨1, ![T]⟩ [] [0] [0] 1) :
    ScatterDims ⟨1, ![N]⟩ ⟨2, ![T, 1]⟩ ⟨1, ![T]⟩ where
  updateWindowDims := []
  insertedWindowDims := [0]
  scatterDimsToOperandDims := [0]
  indexVectorDim := 1
  wf := wf

section VecScatter
variable {N T w : Nat} (wf : ScatterDims.WF ⟨1, ![N]⟩ ⟨2, ![T, 1]⟩ ⟨1, ![T]⟩ [] [0] [0] 1)

/-- Update position `t` reads its start index at `(t, 0)`: the updates' only axis is a scatter axis and supplies the
    indices' axis 0; the index vector (axis 1, of extent 1) has only the component `0`. -/
theorem vecScatter_siIdx (t : Fin T) (c : Fin (vecScatterDims N T wf).scatterDimsToOperandDims.length) :
    (vecScatterDims N T wf).siIdx (ix1 t) c = ix2 t (0 : Fin 1) := by
  funext b
  refine Fin.ext ?_
  match b with
  | ⟨0, _⟩ => rfl
  | ⟨1, _⟩ =>
    have hc : c.val < 1 := c.isLt
    show c.val = 0
    omega

/-- On the operand's only axis the window starts at the start index, read signed and left as it is. -/
theorem vecScatter_start (idx : IVec ⟨2, ![T, 1]⟩ w) (t : Fin T) :
    (vecScatterDims N T wf).start (ix1 t) idx 0 = (idx (ix2 t (0 : Fin 1))).toInt := by
  unfold ScatterDims.start
  rw [dif_pos (show (0 : Fin 1) ∈ (vecScatterDims N T wf).scatterDimsToOperandDims from List.mem_singleton.mpr rfl),
    vecScatter_siIdx]

/-- That axis is inserted (a scalar update has no window): the window coordinate is `0`. -/
theorem vecScatter_window (t : Fin T) : (vecScatterDims N T wf).window (ix1 t) 0 = 0 := rfl

/-- Update `t` lands on operand position `n` exactly when its start index, read signed, is `n`. -/
theorem vecScatter_lands_iff (idx : IVec ⟨2, ![T, 1]⟩ w) (t : Fin T) (n : Fin N) :
    (vecScatterDims N T wf).resultIdx? (ix1 t) idx = some (ix1 n) ↔ (idx (ix2 t (0 : Fin 1))).toInt = (n.val : Int) := by
  rw [resultIdx?_eq_some_iff]
  constructor
  · intro hall
    have h0 := hall 0
    rw [vecScatter_start, vecScatter_window] at h0
    have h0' : (idx (ix2 t (0 : Fin 1))).toInt + ((0 : Nat) : Int) = (n.val : Int) := h0
    omega
  · intro h0 a
    match a with
    | ⟨0, _⟩ =>
      show (vecScatterDims N T wf).start (ix1 t) idx 0 + (((vecScatterDims N T wf).window (ix1 t) 0 : Nat) : Int)
        = (n.val : Int)
      rw [vecScatter_start, vecScatter_window]
      omega

end VecScatter

/-- THE ACCUMULATING SCATTER OF SCALARS READ AT `n`, at the ideal instance. -/
theorem vecScatterAdd_apply {N T w : Nat}
    (wf : ScatterDims.WF ⟨1, ![N]⟩ ⟨2, ![T, 1]⟩ ⟨1, ![T]⟩ [] [0] [0] 1)
    (x : (⟨1, ![N]⟩ : Shape).Idx → EReal) (idx : IVec ⟨2, ![T, 1]⟩ w) (upd : (⟨1, ![T]⟩ : Shape).Idx → EReal)
    (n : Fin N) :
    Ideal.hostScatterAdd (vecScatterDims N T wf) x idx upd (ix1 n)
      = x (ix1 n) + ∑ t ∈ Finset.univ.filter (fun t : Fin T => (idx (ix2 t (0 : Fin 1))).toInt = (n.val : Int)), upd (ix1 t) := by
  unfold Ideal.hostScatterAdd
  congr 1
  -- an update position is its one coordinate t, and it lands on n exactly when idx[t] = n
  refine Finset.sum_nbij' (fun y => (y 0 : Fin T)) (fun t => ix1 t) ?_ ?_ ?_ ?_ ?_
  · intro y hy
    obtain ⟨t, rfl⟩ : ∃ t, y = ix1 t := ⟨y 0, eq_ix1 y⟩
    exact Finset.mem_filter.mpr ⟨Finset.mem_univ _, (vecScatter_lands_iff wf idx t n).mp (Finset.mem_filter.mp hy).2⟩
  · intro t ht
    exact Finset.mem_filter.mpr ⟨Finset.mem_univ _, (vecScatter_lands_iff wf idx t n).mpr (Finset.mem_filter.mp ht).2⟩
  · intro y _
    exact (eq_ix1 y).symm
  · intro t _
    rfl
  · intro y _
    exact congrArg upd (eq_ix1 y)

end Cert.LibIndex

end
-- ==== Proof.KernelHost.lean ====
/-
  What the host operations before the kernel leave in the arrays the kernel reads.
  The two id vectors are column 0 (column 1) of the two clique arrays laid one after the other. Each id is
  normalised (a negative id counts from the end), the table row at the normalised id is gathered (clamped into the
  table), and rows whose normalised id fails `0 ≤ · ≤ 99999` are filled with a NaN pattern; where every id passes the
  test the result is the gathered row. The bias vector is reshaped to one row, the weight difference is column 1 of
  the second layer's weights minus column 0, the bias difference the second bias entry minus the first.
-/
import proofs.«401710_j41463614276026_3_alg».proof.Proof.Gen.KernelIdeal.Frame
import proofs.«401710_j41463614276026_3_alg».proof.Proof.Spec
import proofs.«401710_j41463614276026_3_alg».proof.Proof.LibIndex
import Idealize.ShloMosaic.Lib.ValueIdx
import Idealize.ShloMosaic.Lib.Pipeline.Value
import Idealize.ShloMosaic.Lib.ValueLayout
import Idealize.ShloMosaic.Lib.StableHlo.Run

set_option maxRecDepth 16384

noncomputable section

namespace Cert.KernelIdeal.HostIn

open Cert.KernelIdeal Cert.KernelIdeal.Gen Cert.EdgeProb Idealize.ShloMosaic Idealize.ShloMosaic.TcCoe Idealize.SL.Sem
open Idealize.ShloMosaic.ValueIdx

variable (m : (ℓ : Loc nD τ sig) → Buf (Elt Ideal) ℓ) (c : Dev nD)

/-- The node table, the two clique arrays, the weights and biases as launched on core `c`. -/
abbrev nodes : S100000x64.Idx → EReal := m ((c : Thread nD τ).loc main_arg3)
abbrev cliquesR : S500000x4.Idx → BitVec 32 := m ((c : Thread nD τ).loc main_arg1)
abbrev cliquesS : S500000x4.Idx → BitVec 32 := m ((c : Thread nD τ).loc main_arg2)
abbrev w5 : S64x128.Idx → EReal := m ((c : Thread nD τ).loc main_arg4)
abbrev b5 : S128.Idx → EReal := m ((c : Thread nD τ).loc main_arg5)
abbrev w6 : S128x2.Idx → EReal := m ((c : Thread nD τ).loc main_arg6)
abbrev b6 : S2.Idx → EReal := m ((c : Thread nD τ).loc main_arg7)

/-! ## The lookup and the id vectors, as functions of the arrays they read -/

/-- The two reshaped column slices laid one after the other: column `o` of the first array, then of the second. -/
private def idsOf (o : Nat) (hs : S500000x4.Slices ![0, o] S500000x1) (cr cs : S500000x4.Idx → BitVec 32) :
    S1000000.Idx → BitVec 32 :=
  concatenate S1000000 0
    [⟨S500000, shapeCast S500000 (extractStridedSlice S500000x1 ![0, o] cr hs) shapeCasts_S500000x1_S500000⟩,
     ⟨S500000, shapeCast S500000 (extractStridedSlice S500000x1 ![0, o] cs hs) shapeCasts_S500000x1_S500000⟩]
    concatenates_S500000_S500000_S1000000_d0

/-- Every id normalised: a negative one counts from the end of the 100000 rows. -/
private def wrapped (ids : S1000000.Idx → BitVec 32) : S1000000.Idx → BitVec 32 :=
  select (cmpi .slt ids (broadcastInDim S1000000 ![] bcast_S_S1000000 (constantI S_ 32 0#32)))
    (addi ids (broadcastInDim S1000000 ![] bcast_S_S1000000 (constantI S_ 32 100000#32))) ids

/-- The normalised ids as a one-column array. -/
private def col (ids : S1000000.Idx → BitVec 32) : S1000000x1.Idx → BitVec 32 :=
  broadcastInDim S1000000x1 ![0] bcast_S1000000_S1000000x1_0 (wrapped ids)

/-- The range test `0 ≤ · ≤ 99999` of every normalised id, as a one-column array of bits. -/
private def inRangeCol (ids : S1000000.Idx → BitVec 32) : S1000000x1.Idx → BitVec 1 :=
  andi (cmpi .sge (col ids) (broadcastInDim S1000000x1 ![] bcast_S_S1000000x1 (constantI S_ 32 0#32)))
    (cmpi .sle (col ids) (broadcastInDim S1000000x1 ![0, 1] bcast_S1x1_S1000000x1_0_1
      (broadcastInDim S1x1 ![1] bcast_S1_S1x1_1 (constantI S1 32 99999#32))))

/-- The test reduced over the column axis (of extent one): one bit per id. -/
private def maskOf (ids : S1000000.Idx → BitVec 32) : S1000000.Idx → BitVec 1 :=
  Host.reduce IntOp.andi (inRangeCol ids) (constantI S_ 1 1#1) reducesTo_S1000000x1_S1000000_d1 h_S_

/-- The lookup: the gathered rows where the id passes the test, a fill pattern elsewhere. -/
private def taken (x : S100000x64.Idx → EReal) (ids : S1000000.Idx → BitVec 32) : S1000000x64.Idx → EReal :=
  select (broadcastInDim S1000000x64 ![0] bcast_S1000000_S1000000x64_0 (maskOf ids))
    (Host.gather gather_S100000x64_S1000000x1_S1000000x64_1_0_n_n_0_1_164 x (col ids))
    (broadcastInDim S1000000x64 ![] bcast_S_S1000000x64 (constant (F := Ideal) S_ .f32 0x7FC00000#32))

/-- Contents moved to a typed reference's buffer type and back are the contents. -/
private theorem ofBuf_toBuf {T : BufTy} (x : StableHlo.TRef sig T) (v : T.Contents (Elt Ideal)) :
    x.ofBuf (x.toBuf v) = v := by
  obtain ⟨r, h, h2, h3⟩ := x
  subst h
  rfl
private theorem ofBuf_v4 (p1 p2 p3) (v : S1000000.Idx → BitVec 32) :
    (StableHlo.TRef.of (sig := sig) (T := ⟨S1000000, .i32⟩) main_v4 p1 p2 p3).ofBuf (Val := Elt Ideal) v = v := rfl
private theorem ofBuf_v9 (p1 p2 p3) (v : S1000000.Idx → BitVec 32) :
    (StableHlo.TRef.of (sig := sig) (T := ⟨S1000000, .i32⟩) main_v9 p1 p2 p3).ofBuf (Val := Elt Ideal) v = v := rfl
private theorem ofBuf_arg3 (p1 p2 p3) (v : S100000x64.Idx → EReal) :
    (StableHlo.TRef.of (sig := sig) (T := ⟨S100000x64, .f32⟩) main_arg3 p1 p2 p3).ofBuf (Val := Elt Ideal) v = v := rfl
private theorem toBuf_v10 (p1 p2 p3) (v : S1000000x64.Idx → EReal) :
    (StableHlo.TRef.of (sig := sig) (T := ⟨S1000000x64, .f32⟩) main_v10 p1 p2 p3).toBuf (Val := Elt Ideal) v = v := rfl
private theorem toBuf_v11 (p1 p2 p3) (v : S1000000x64.Idx → EReal) :
    (StableHlo.TRef.of (sig := sig) (T := ⟨S1000000x64, .f32⟩) main_v11 p1 p2 p3).toBuf (Val := Elt Ideal) v = v := rfl

/-- A left fold by `and` from 1 over bits that are all 1 is 1. -/
private theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_one f hf l

/-- The one-column array at `(t, 0)` is the normalised id at `t`. -/
private theorem col_apply (ids : S1000000.Idx → BitVec 32) (t : Fin 1000000) :
    col ids (ix2 t (0 : Fin 1)) = wrapIdx (ids (ix1 t)) := by
  unfold col
  rw [broadcastInDim_apply ![0] bcast_S1000000_S1000000x1_0 (wrapped ids) (ix2 t (0 : Fin 1)) (ix1 t)
    (fun a => match a with
      | ⟨0, _⟩ => by
        have h1 : ¬ ((1000000 : Nat) = 1) := by omega
        exact (if_neg h1).symm)]
  rfl

/-- The range test at `(t, 0)`, on the normalised id at `t`. -/
private theorem inRangeCol_apply (ids : S1000000.Idx → BitVec 32) (t : Fin 1000000) :
    inRangeCol ids (ix2 t (0 : Fin 1))
      = IntOp.andi (IntOp.cmpi .sge (wrapIdx (ids (ix1 t))) 0#32) (IntOp.cmpi .sle (wrapIdx (ids (ix1 t))) 99999#32) := by
  rw [← col_apply]; rfl

/-- Where every normalised id passes the range test, every bit of the reduced test is 1: the reduction folds `and`
    from 1 over bits that are all 1. -/
private theorem maskOf_eq_one (ids : S1000000.Idx → BitVec 32) (hok : ∀ t : Fin 1000000, MaskOK (ids (ix1 t)))
    (j : S1000000.Idx) : maskOf ids j = 1#1 := by
  unfold maskOf
  rw [Host.reduce_eq_foldl]
  exact foldl_andi_one (inRangeCol ids) (fun i => by
    obtain ⟨p, q, rfl⟩ : ∃ p q, i = ix2 p q := ⟨i 0, i 1, eq_ix2 i⟩
    obtain rfl : q = 0 := Subsingleton.elim _ _
    rw [inRangeCol_apply]; exact hok p) _

/-- The lookup at `(t, k)`, where every id passes the test: the table at the row of id `t`, column `k`. -/
private theorem taken_apply (x : S100000x64.Idx → EReal) (ids : S1000000.Idx → BitVec 32)
    (hok : ∀ t : Fin 1000000, MaskOK (ids (ix1 t))) (t : Fin 1000000) (k : Fin 64) :
    taken x ids (ix2 t k) = x (ix2 (rowOf (ids (ix1 t))) k) := by
  -- the gather reads the row at the start index, read signed and clamped into the table
  have hg : Host.gather gather_S100000x64_S1000000x1_S1000000x64_1_0_n_n_0_1_164 x (col ids) (ix2 t k)
      = x (ix2 (⟨min (col ids (ix2 t (0 : Fin 1))).toInt.toNat (100000 - 1), by omega⟩ : Fin 100000) k) :=
    Cert.LibIndex.rowGather_apply (N := 100000) (T := 1000000) (C := 64) (by decide) _ x (col ids) t k
  unfold taken
  rw [select_apply, show broadcastInDim S1000000x64 ![0] bcast_S1000000_S1000000x64_0 (maskOf ids) (ix2 t k) = 1#1
    from maskOf_eq_one ids hok _, select_one, hg]
  congr 2
  refine Fin.ext ?_
  show min (col ids (ix2 t (0 : Fin 1))).toInt.toNat (100000 - 1) = min (wrapIdx (ids (ix1 t))).toInt.toNat (100000 - 1)
  rw [col_apply]

/-- One column of a four-column word array, reshaped to a vector, read at `t`. -/
private theorem col4_apply {α : Type} {T : Nat} (e : (⟨2, ![T, 4]⟩ : Shape).Idx → α) (o : Nat) (j : Fin 4) (hj : j.val = o)
    (hs : (⟨2, ![T, 4]⟩ : Shape).Slices ![0, o] ⟨2, ![T, 1]⟩)
    (hc : (⟨2, ![T, 1]⟩ : Shape).ShapeCasts ⟨1, ![T]⟩) (t : Fin T) :
    shapeCast ⟨1, ![T]⟩ (extractStridedSlice ⟨2, ![T, 1]⟩ ![0, o] e hs) hc (ix1 t) = e (ix2 t j) := by
  -- the reshape: (t, 0) of [T, 1] and t of [T] both sit at position t
  refine (shapeCast_apply _ hc (ix1 t) (ix2 t (0 : Fin 1)) ?_).trans ?_
  · rw [Shape.rowMajor_val_two, Shape.rowMajor_val_one]
    show t.val * 1 + (0 : Nat) = t.val
    rw [Nat.mul_one, Nat.add_zero]
  -- the slice: (t, 0) reads the four-column array at (0 + t, o + 0)
  · exact extractStridedSlice_apply _ e hs _ _ (fun x => match x with
      | ⟨0, _⟩ => by show t.val = 0 + t.val; omega
      | ⟨1, _⟩ => by show j.val = o + 0; omega)

/-- The two column slices laid one after the other, read at `t`: id `a` of fused row `t`. -/
private theorem idsOf_apply (o : Nat) (a : Fin 4) (ha : a.val = o) (hs : S500000x4.Slices ![0, o] S500000x1)
    (cr cs : S500000x4.Idx → BitVec 32) (t : Fin 1000000) :
    idsOf o hs cr cs (ix1 t) = fusedId cr cs a t := by
  unfold idsOf fusedId
  by_cases h : t.val < 500000
  · -- a position in the first half reads the first array's column
    rw [dif_pos h, concatenate_pair_apply_left (0 : Fin S1000000.rank) _ _ concatenates_S500000_S500000_S1000000_d0
      (ix1 t) rfl (ix1 (⟨t.val, h⟩ : Fin 500000)) (fun b => match b with | ⟨0, _⟩ => rfl)]
    exact col4_apply cr o a ha hs _ _
  · -- a position in the second half reads the second array's column, 500000 rows back
    rw [dif_neg h, concatenate_pair_apply_right (0 : Fin S1000000.rank) _ _ concatenates_S500000_S500000_S1000000_d0
      (ix1 t) rfl rfl (ix1 (⟨t.val - 500000, by have := t.isLt; omega⟩ : Fin 500000))
      (fun b hb => absurd (Subsingleton.elim _ _) hb)
      (by show (t.val - 500000) + 500000 = t.val; omega)]
    exact col4_apply cs o a ha hs _ _

/-! ## The host operations stretch by stretch

The operations before the kernel run in four stretches: the two id vectors; the lookup of the first; the lookup of the
second; the bias row and the two differences. Each stretch is read over ANY contents `W` it starts from, so that what a
later stretch reads is what the earlier ones left. -/

/-- The contents when the kernel is entered, stretch after stretch. -/
private theorem V0_stages :
    V0 m c = StableHlo.after hostOps0_3 (StableHlo.after hostOps0_2 (StableHlo.after hostOps0_1
      (StableHlo.after hostOps0 (fun b => m (c, b))))) := by
  show StableHlo.after (List.flatten [hostOps0, hostOps0_1, hostOps0_2, hostOps0_3]) _ = _
  rw [List.flatten_cons, List.flatten_cons, List.flatten_cons, List.flatten_cons, List.flatten_nil, List.append_nil,
    StableHlo.after_append, StableHlo.after_append, StableHlo.after_append]

/-- The first stretch leaves the vector of ids 0 … -/
private theorem stage0_v4 (W : Valuation τ sig (Elt Ideal)) :
    (StableHlo.after (hostOps0 (F := Ideal)) W (Proc.devRef .tc main_v4) : S1000000.Idx → BitVec 32)
      = idsOf 0 slices_S500000x4_S500000x1_0_0 (W (Proc.devRef .tc main_arg1)) (W (Proc.devRef .tc main_arg2)) := by
  simp only [Gen.hostOps0]
  after_results_simp
  rfl

/-- … and the vector of ids 1. -/
private theorem stage0_v9 (W : Valuation τ sig (Elt Ideal)) :
    (StableHlo.after (hostOps0 (F := Ideal)) W (Proc.devRef .tc main_v9) : S1000000.Idx → BitVec 32)
      = idsOf 1 slices_S500000x4_S500000x1_0_1 (W (Proc.devRef .tc main_arg1)) (W (Proc.devRef .tc main_arg2)) := by
  simp only [Gen.hostOps0]
  after_results_simp
  rfl

/-- The second stretch leaves the lookup of the table at the ids 0. -/
private theorem stage1_v10 (W : Valuation τ sig (Elt Ideal)) :
    (StableHlo.after (hostOps0_1 (F := Ideal)) W (Proc.devRef .tc main_v10) : S1000000x64.Idx → EReal)
      = taken (W (Proc.devRef .tc main_arg3)) (W (Proc.devRef .tc main_v4)) := by
  simp only [Gen.hostOps0_1]
  after_results_simp
  simp only [ofBuf_toBuf, ofBuf_v4, ofBuf_arg3, toBuf_v10]
  rfl

/-- The third stretch leaves the lookup of the table at the ids 1. -/
private theorem stage2_v11 (W : Valuation τ sig (Elt Ideal)) :
    (StableHlo.after (hostOps0_2 (F := Ideal)) W (Proc.devRef .tc main_v11) : S1000000x64.Idx → EReal)
      = taken (W (Proc.devRef .tc main_arg3)) (W (Proc.devRef .tc main_v9)) := by
  simp only [Gen.hostOps0_2]
  after_results_simp
  simp only [ofBuf_toBuf, ofBuf_v9, ofBuf_arg3, toBuf_v11]
  rfl

/-- The first stretch does not write the node table. -/
private theorem keep0_arg3 (W : Valuation τ sig (Elt Ideal)) :
    StableHlo.after (hostOps0 (F := Ideal)) W (Proc.devRef .tc main_arg3) = W (Proc.devRef .tc main_arg3) :=
  StableHlo.after_of_forall_not_mem (b := Proc.devRef .tc main_arg3) _ _ (List.forall_iff_forall_mem.mp (by
    simp only [Gen.hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- Nor does the second. -/
private theorem keep1_arg3 (W : Valuation τ sig (Elt Ideal)) :
    StableHlo.after (hostOps0_1 (F := Ideal)) W (Proc.devRef .tc main_arg3) = W (Proc.devRef .tc main_arg3) :=
  StableHlo.after_of_forall_not_mem (b := Proc.devRef .tc main_arg3) _ _ (List.forall_iff_forall_mem.mp (by
    simp only [Gen.hostOps0_1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The second stretch does not write the vector of ids 1. -/
private theorem keep1_v9 (W : Valuation τ sig (Elt Ideal)) :
    StableHlo.after (hostOps0_1 (F := Ideal)) W (Proc.devRef .tc main_v9) = W (Proc.devRef .tc main_v9) :=
  StableHlo.after_of_forall_not_mem (b := Proc.devRef .tc main_v9) _ _ (List.forall_iff_forall_mem.mp (by
    simp only [Gen.hostOps0_1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The third stretch does not write the first lookup. -/
private theorem keep2_v10 (W : Valuation τ sig (Elt Ideal)) :
    StableHlo.after (hostOps0_2 (F := Ideal)) W (Proc.devRef .tc main_v10) = W (Proc.devRef .tc main_v10) :=
  StableHlo.after_of_forall_not_mem (b := Proc.devRef .tc main_v10) _ _ (List.forall_iff_forall_mem.mp (by
    simp only [Gen.hostOps0_2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- Nor does the fourth. -/
private theorem keep3_v10 (W : Valuation τ sig (Elt Ideal)) :
    StableHlo.after (hostOps0_3 (F := Ideal)) W (Proc.devRef .tc main_v10) = W (Proc.devRef .tc main_v10) :=
  StableHlo.after_of_forall_not_mem (b := Proc.devRef .tc main_v10) _ _ (List.forall_iff_forall_mem.mp (by
    simp only [Gen.hostOps0_3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The fourth stretch does not write the second lookup. -/
private theorem keep3_v11 (W : Valuation τ sig (Elt Ideal)) :
    StableHlo.after (hostOps0_3 (F := Ideal)) W (Proc.devRef .tc main_v11) = W (Proc.devRef .tc main_v11) :=
  StableHlo.after_of_forall_not_mem (b := Proc.devRef .tc main_v11) _ _ (List.forall_iff_forall_mem.mp (by
    simp only [Gen.hostOps0_3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The first gathered array at `(t, k)`: the node table at the row of id 0 of fused row `t`, column `k`. -/
theorem xi_apply (hok : ∀ t : Fin 1000000, MaskOK (fusedId (cliquesR m c) (cliquesS m c) 0 t))
    (t : Fin 1000000) (k : Fin 64) :
    (V m c main_v10 : S1000000x64.Idx → EReal) (ix2 t k)
      = nodes m c (ix2 (rowOf (fusedId (cliquesR m c) (cliquesS m c) 0 t)) k) := by
  have e : (V m c main_v10 : S1000000x64.Idx → EReal)
      = taken (nodes m c) (idsOf 0 slices_S500000x4_S500000x1_0_0 (cliquesR m c) (cliquesS m c)) := by
    dsimp only [Gen.V]
    rw [V0_stages, keep3_v10, keep2_v10, stage1_v10, keep0_arg3, stage0_v4]
  rw [e, taken_apply _ _ (fun t => by rw [idsOf_apply 0 0 rfl]; exact hok t), idsOf_apply 0 0 rfl]

/-- The second gathered array at `(t, k)`: the same with id 1. -/
theorem xj_apply (hok : ∀ t : Fin 1000000, MaskOK (fusedId (cliquesR m c) (cliquesS m c) 1 t))
    (t : Fin 1000000) (k : Fin 64) :
    (V m c main_v11 : S1000000x64.Idx → EReal) (ix2 t k)
      = nodes m c (ix2 (rowOf (fusedId (cliquesR m c) (cliquesS m c) 1 t)) k) := by
  have e : (V m c main_v11 : S1000000x64.Idx → EReal)
      = taken (nodes m c) (idsOf 1 slices_S500000x4_S500000x1_0_1 (cliquesR m c) (cliquesS m c)) := by
    dsimp only [Gen.V]
    rw [V0_stages, keep3_v11, stage2_v11, keep1_arg3, keep0_arg3, keep1_v9, stage0_v9]
  rw [e, taken_apply _ _ (fun t => by rw [idsOf_apply 1 1 rfl]; exact hok t), idsOf_apply 1 1 rfl]

/-- The first layer's weights reach the kernel as launched. -/
theorem w5_apply (k : Fin 64) (j : Fin 128) :
    (V m c main_arg4 : S64x128.Idx → EReal) (ix2 k j) = w5 m c (ix2 k j) :=
  congrFun (V_main_arg4 m c) (ix2 k j)

/-- The bias row at `(0, j)`: the bias vector at `j`. -/
theorem b5row_apply (j : Fin 128) :
    (V m c main_v12 : S1x128.Idx → EReal) (ix2 (0 : Fin 1) j) = b5 m c (ix1 j) := by
  -- the row is the bias vector reshaped
  have e : (V m c main_v12 : S1x128.Idx → EReal) = shapeCast S1x128 (b5 m c) shapeCasts_S128_S1x128 := by
    dsimp only [Gen.V, Gen.V0]
    simp only [Gen.hostOps0, Gen.hostOps0_1, Gen.hostOps0_2, Gen.hostOps0_3, List.flatten_cons, List.flatten_nil, List.append_nil, List.cons_append, List.nil_append]
    after_results_simp
    rfl
  rw [e]
  exact shapeCast_a_1a_apply _ _ _ _

/-- The weight-difference column at `(j, 0)`. -/
theorem dW_apply (j : Fin 128) :
    (V m c main_v15 : S128x1.Idx → EReal) (ix2 j (0 : Fin 1))
      = w6 m c (ix2 j (1 : Fin 2)) - w6 m c (ix2 j (0 : Fin 2)) := by
  -- the column is column 1 of the second layer's weights minus column 0, entry by entry
  have e : (V m c main_v15 : S128x1.Idx → EReal)
      = subf (F := Ideal) (φ := .f32) (extractStridedSlice S128x1 ![0, 1] (w6 m c) slices_S128x2_S128x1_0_1)
          (extractStridedSlice S128x1 ![0, 0] (w6 m c) slices_S128x2_S128x1_0_0) := by
    dsimp only [Gen.V, Gen.V0]
    simp only [Gen.hostOps0, Gen.hostOps0_1, Gen.hostOps0_2, Gen.hostOps0_3, List.flatten_cons, List.flatten_nil, List.append_nil, List.cons_append, List.nil_append]
    after_results_simp
  rw [e, subf_apply, slice2_axis1_apply 1 (w6 m c) slices_S128x2_S128x1_0_1 j (0 : Fin 1) (1 : Fin 2) rfl,
    slice2_axis1_apply 0 (w6 m c) slices_S128x2_S128x1_0_0 j (0 : Fin 1) (0 : Fin 2) rfl]

/-- The scalar shape has one position. -/
private theorem rowMajor_scalar (k : S_.Idx) : (S_.rowMajor k).val = 0 :=
  Nat.lt_one_iff.mp (S_.rowMajor k).isLt

/-- The bias difference. -/
theorem db_apply :
    (V m c main_v21 : S1x1.Idx → EReal) (ix2 (0 : Fin 1) (0 : Fin 1))
      = b6 m c (ix1 (1 : Fin 2)) - b6 m c (ix1 (0 : Fin 2)) := by
  -- the one entry is the difference of two scalars, each a one-entry slice of the bias pair reshaped to a scalar
  have e : (V m c main_v21 : S1x1.Idx → EReal)
      = shapeCast S1x1 (subf (F := Ideal) (φ := .f32)
          (shapeCast S_ (extractStridedSlice S1 ![1] (b6 m c) slices_S2_S1_1) shapeCasts_S1_S_)
          (shapeCast S_ (extractStridedSlice S1 ![0] (b6 m c) slices_S2_S1_0) shapeCasts_S1_S_)) shapeCasts_S_S1x1 := by
    dsimp only [Gen.V, Gen.V0]
    simp only [Gen.hostOps0, Gen.hostOps0_1, Gen.hostOps0_2, Gen.hostOps0_3, List.flatten_cons, List.flatten_nil, List.append_nil, List.cons_append, List.nil_append]
    after_results_simp
    rfl
  -- every reshape here is between shapes of one position; each slice of one entry reads the pair at its offset
  rw [e, shapeCast_apply _ shapeCasts_S_S1x1 (ix2 (0 : Fin 1) (0 : Fin 1)) ix0
    (by rw [rowMajor_scalar, Shape.rowMajor_val_two]; rfl), subf_apply,
    shapeCast_apply _ shapeCasts_S1_S_ ix0 (ix1 (0 : Fin 1)) (by rw [rowMajor_scalar, Shape.rowMajor_val_one]; rfl),
    shapeCast_apply _ shapeCasts_S1_S_ ix0 (ix1 (0 : Fin 1)) (by rw [rowMajor_scalar, Shape.rowMajor_val_one]; rfl),
    extractStridedSlice_apply _ (b6 m c) slices_S2_S1_1 (ix1 (0 : Fin 1)) (ix1 (1 : Fin 2)) (fun a => match a with | ⟨0, _⟩ => rfl),
    extractStridedSlice_apply _ (b6 m c) slices_S2_S1_0 (ix1 (0 : Fin 1)) (ix1 (0 : Fin 2)) (fun a => match a with | ⟨0, _⟩ => rfl)]

end Cert.KernelIdeal.HostIn

end
-- ==== Proof.KernelValue.lean ====
/-
  The kernel's output array and the two results cut from it.
  The grid has 250 points; point `t` reads rows `4000 t … 4000 t + 3999` of the two gathered arrays and the whole of
  the weights, the bias row, the weight-difference column and the bias difference, and writes rows
  `4000 t … 4000 t + 3999` of the [1000000, 2] output. Row `4000 t + p` of the output is the logistic pair of fused
  row `4000 t + p`; the 250 blocks tile the output, so the whole array is one function of the arguments. The first
  result is its rows `0 … 499999` (the first clique array's rows), the second its rows `500000 … 999999` (the second
  clique array's rows) with an axis of extent one inserted.
-/
import proofs.«401710_j41463614276026_3_alg».proof.Proof.Gen.KernelIdeal.Frame
import proofs.«401710_j41463614276026_3_alg».proof.Proof.Spec
import proofs.«401710_j41463614276026_3_alg».proof.Proof.KernelPay
import proofs.«401710_j41463614276026_3_alg».proof.Proof.KernelHost
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

set_option maxRecDepth 16384

noncomputable section

namespace Cert.KernelIdeal.Out

open Cert.KernelIdeal Cert.KernelIdeal.Gen Cert.KernelIdeal.HostIn Cert.EdgeProb
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

theorem hN : cfg0.N = 250 := N_0

/-- Row `4000 t + p` of the million fused rows. -/
abbrev fusedRow (t : Fin cfg0.N) (p : Fin 4000) : Fin 1000000 :=
  ⟨4000 * t.val + p.val, by have := t.isLt; have := p.isLt; have := hN; omega⟩

/-- The index maps over the grid: the two row-blocked inputs and the output move with the point, the rest stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-! ## Where a block's entries sit in their array -/

/-- Inside block `t` of the first row-blocked input the index `(p, k)` sits at row `4000 t + p`. -/
theorem emb0 (t : Fin cfg0.N) (p : Fin 4000) (k : Fin 64) :
    ((cfg0.win 0).blk t).view.emb (ix2 p k) = (ix2 (fusedRow t p) k : S1000000x64.Idx) := by
  obtain ⟨e0, e1, -⟩ := idx_facts t
  funext a
  apply Fin.ext
  match a with
  | ⟨0, _⟩ => show win0_0.index t 0 * 4000 + 1 * p.val = 4000 * t.val + p.val; rw [e0]; omega
  | ⟨1, _⟩ => show win0_0.index t 1 * 64 + 1 * k.val = k.val; rw [e1]; omega

/-- The same for the second row-blocked input. -/
theorem emb1 (t : Fin cfg0.N) (p : Fin 4000) (k : Fin 64) :
    ((cfg0.win 1).blk t).view.emb (ix2 p k) = (ix2 (fusedRow t p) k : S1000000x64.Idx) := by
  obtain ⟨-, -, e0, e1, -⟩ := idx_facts t
  funext a
  apply Fin.ext
  match a with
  | ⟨0, _⟩ => show win0_1.index t 0 * 4000 + 1 * p.val = 4000 * t.val + p.val; rw [e0]; omega
  | ⟨1, _⟩ => show win0_1.index t 1 * 64 + 1 * k.val = k.val; rw [e1]; omega

/-- The first layer's weights are one block: an index is its own position. -/
theorem emb2 (t : Fin cfg0.N) (k : Fin 64) (j : Fin 128) :
    ((cfg0.win 2).blk t).view.emb (ix2 k j) = (ix2 k j : S64x128.Idx) := by
  obtain ⟨-, -, -, -, e0, e1, -⟩ := idx_facts t
  funext a
  apply Fin.ext
  match a with
  | ⟨0, _⟩ => show win0_2.index t 0 * 64 + 1 * k.val = k.val; rw [e0]; omega
  | ⟨1, _⟩ => show win0_2.index t 1 * 128 + 1 * j.val = j.val; rw [e1]; omega

/-- The bias row is one block. -/
theorem emb3 (t : Fin cfg0.N) (j : Fin 128) :
    ((cfg0.win 3).blk t).view.emb (ix2 (0 : Fin 1) j) = (ix2 (0 : Fin 1) j : S1x128.Idx) := by
  obtain ⟨-, -, -, -, -, -, e0, e1, -⟩ := idx_facts t
  funext a
  apply Fin.ext
  match a with
  | ⟨0, _⟩ => show win0_3.index t 0 * 1 + 1 * 0 = 0; rw [e0]
  | ⟨1, _⟩ => show win0_3.index t 1 * 128 + 1 * j.val = j.val; rw [e1]; omega

/-- The weight-difference column is one block. -/
theorem emb4 (t : Fin cfg0.N) (j : Fin 128) :
    ((cfg0.win 4).blk t).view.emb (ix2 j (0 : Fin 1)) = (ix2 j (0 : Fin 1) : S128x1.Idx) := by
  obtain ⟨-, -, -, -, -, -, -, -, e0, e1, -⟩ := idx_facts t
  funext a
  apply Fin.ext
  match a with
  | ⟨0, _⟩ => show win0_4.index t 0 * 128 + 1 * j.val = j.val; rw [e0]; omega
  | ⟨1, _⟩ => show win0_4.index t 1 * 1 + 1 * 0 = 0; rw [e1]

/-- The bias difference is one block of one entry. -/
theorem emb5 (t : Fin cfg0.N) :
    ((cfg0.win 5).blk t).view.emb (ix2 (0 : Fin 1) (0 : Fin 1)) = (ix2 (0 : Fin 1) (0 : Fin 1) : S1x1.Idx) := by
  obtain ⟨-, -, -, -, -, -, -, -, -, -, e0, e1, -⟩ := idx_facts t
  funext a
  apply Fin.ext
  match a with
  | ⟨0, _⟩ => show win0_5.index t 0 * 1 + 1 * 0 = 0; rw [e0]
  | ⟨1, _⟩ => show win0_5.index t 1 * 1 + 1 * 0 = 0; rw [e1]

/-- Inside block `t` of the output the index `(p, q)` sits at row `4000 t + p`. -/
theorem emb6 (t : Fin cfg0.N) (p : Fin 4000) (q : Fin 2) :
    ((cfg0.win 6).blk t).view.emb (ix2 p q) = (ix2 (fusedRow t p) q : S1000000x2.Idx) := by
  obtain ⟨-, -, -, -, -, -, -, -, -, -, -, -, e0, e1⟩ := idx_facts t
  funext a
  apply Fin.ext
  match a with
  | ⟨0, _⟩ => show win0_6.index t 0 * 4000 + 1 * p.val = 4000 * t.val + p.val; rw [e0]; omega
  | ⟨1, _⟩ => show win0_6.index t 1 * 2 + 1 * q.val = q.val; rw [e1]; omega

/-! ## A block read through its window, for any array -/

theorem blk0_read (c : Dev nD) (A : Buf (Elt Ideal) ((cfg0.win 0).arr.view.loc (c.tc : Thread nD τ))) (t : Fin cfg0.N)
    (p : Fin 4000) (k : Fin 64) :
    (((cfg0.win 0).blk t).view.read (Elt Ideal) A : Vec Ideal S4000x64 .f32) (ix2 p k)
      = (A : S1000000x64.Idx → EReal) (ix2 (fusedRow t p) k) := by
  rewrite [View.read_apply]
  show (A : S1000000x64.Idx → EReal) (((cfg0.win 0).blk t).view.emb (ix2 p k)) = _
  rewrite [emb0]
  exact Eq.refl _

theorem blk1_read (c : Dev nD) (A : Buf (Elt Ideal) ((cfg0.win 1).arr.view.loc (c.tc : Thread nD τ))) (t : Fin cfg0.N)
    (p : Fin 4000) (k : Fin 64) :
    (((cfg0.win 1).blk t).view.read (Elt Ideal) A : Vec Ideal S4000x64 .f32) (ix2 p k)
      = (A : S1000000x64.Idx → EReal) (ix2 (fusedRow t p) k) := by
  rewrite [View.read_apply]
  show (A : S1000000x64.Idx → EReal) (((cfg0.win 1).blk t).view.emb (ix2 p k)) = _
  rewrite [emb1]
  exact Eq.refl _

theorem blk2_read (c : Dev nD) (A : Buf (Elt Ideal) ((cfg0.win 2).arr.view.loc (c.tc : Thread nD τ))) (t : Fin cfg0.N)
    (k : Fin 64) (j : Fin 128) :
    (((cfg0.win 2).blk t).view.read (Elt Ideal) A : Vec Ideal S64x128 .f32) (ix2 k j)
      = (A : S64x128.Idx → EReal) (ix2 k j) := by
  rewrite [View.read_apply]
  show (A : S64x128.Idx → EReal) (((cfg0.win 2).blk t).view.emb (ix2 k j)) = _
  rewrite [emb2]
  exact Eq.refl _

theorem blk3_read (c : Dev nD) (A : Buf (Elt Ideal) ((cfg0.win 3).arr.view.loc (c.tc : Thread nD τ))) (t : Fin cfg0.N)
    (j : Fin 128) :
    (((cfg0.win 3).blk t).view.read (Elt Ideal) A : Vec Ideal S1x128 .f32) (ix2 (0 : Fin 1) j)
      = (A : S1x128.Idx → EReal) (ix2 (0 : Fin 1) j) := by
  rewrite [View.read_apply]
  show (A : S1x128.Idx → EReal) (((cfg0.win 3).blk t).view.emb (ix2 (0 : Fin 1) j)) = _
  rewrite [emb3]
  exact Eq.refl _

theorem blk4_read (c : Dev nD) (A : Buf (Elt Ideal) ((cfg0.win 4).arr.view.loc (c.tc : Thread nD τ))) (t : Fin cfg0.N)
    (j : Fin 128) :
    (((cfg0.win 4).blk t).view.read (Elt Ideal) A : Vec Ideal S128x1 .f32) (ix2 j (0 : Fin 1))
      = (A : S128x1.Idx → EReal) (ix2 j (0 : Fin 1)) := by
  rewrite [View.read_apply]
  show (A : S128x1.Idx → EReal) (((cfg0.win 4).blk t).view.emb (ix2 j (0 : Fin 1))) = _
  rewrite [emb4]
  exact Eq.refl _

theorem blk5_read (c : Dev nD) (A : Buf (Elt Ideal) ((cfg0.win 5).arr.view.loc (c.tc : Thread nD τ))) (t : Fin cfg0.N) :
    (((cfg0.win 5).blk t).view.read (Elt Ideal) A : Vec Ideal S1x1 .f32) (ix2 (0 : Fin 1) (0 : Fin 1))
      = (A : S1x1.Idx → EReal) (ix2 (0 : Fin 1) (0 : Fin 1)) := by
  rewrite [View.read_apply]
  show (A : S1x1.Idx → EReal) (((cfg0.win 5).blk t).view.emb (ix2 (0 : Fin 1) (0 : Fin 1))) = _
  rewrite [emb5]
  exact Eq.refl _

/-- A [4000, 2] block whose entry `(p, q)` is `G` at row `4000 t + p` is block `t` of `G` read through the output
    window. -/
theorem out_block_eq (c : Dev nD) (G : Buf (Elt Ideal) ((cfg0.win 6).arr.view.loc (c.tc : Thread nD τ))) (t : Fin cfg0.N)
    (B : Vec Ideal S4000x2 .f32)
    (h : ∀ (p : Fin 4000) (q : Fin 2), B (ix2 p q) = (G : S1000000x2.Idx → EReal) (ix2 (fusedRow t p) q)) :
    (cfg0.win 6).cut (grid0.coords t) B = ((cfg0.win 6).blk t).view.read (Elt Ideal) G := by
  funext j
  rewrite [View.read_apply]
  obtain ⟨p, q, rfl⟩ : ∃ (p : Fin 4000) (q : Fin 2), j = ix2 p q := ⟨j 0, j 1, eq_ix2 j⟩
  show B (ix2 p q) = (G : S1000000x2.Idx → EReal) (((cfg0.win 6).blk t).view.emb (ix2 p q))
  rewrite [emb6]
  exact h p q

/-! ## The body's block -/

/-- What the body leaves in the output's staging buffer, at `(p, q)`: the logistic pair of row `p` of the blocks. -/
theorem out_apply (x0 x1 : Vec Ideal S4000x64 .f32) (x2 : Vec Ideal S64x128 .f32) (x3 : Vec Ideal S1x128 .f32)
    (x4 : Vec Ideal S128x1 .f32) (x5 : Vec Ideal S1x1 .f32) (p : Fin 4000) (q : Fin 2) :
    (out0_6 x0 x1 x2 x3 x4 x5 : S4000x2.Idx → EReal) (ix2 p q)
      = sigmoidRow
          (hidden (fun k => x0 (ix2 p k)) (fun k => x1 (ix2 p k)) (fun k j => x2 (ix2 k j))
            (fun j => x3 (ix2 (0 : Fin 1) j)))
          (fun j => x4 (ix2 j (0 : Fin 1))) (x5 (ix2 (0 : Fin 1) (0 : Fin 1))) q := by
  unfold out0_6
  rewrite [View.canon_unit_zero hz]
  simp only [View.ld_unit_zero (S := S4000x64) hz, View.ld_unit_zero (S := S64x128) hz,
    View.ld_unit_zero (S := S1x128) hz, View.ld_unit_zero (S := S128x1) hz, View.ld_unit_zero (S := S1x1) hz]
  exact Pay.pay_apply x0 x1 x2 x3 x4 x5 p q

/-- Blocks whose rows are the table rows of two ids, with the weights, the bias row, the weight-difference column
    and the bias difference, give the logistic form of those ids' probabilities. -/
theorem rows_eq (x0 x1 : Vec Ideal S4000x64 .f32) (x2 : Vec Ideal S64x128 .f32) (x3 : Vec Ideal S1x128 .f32)
    (x4 : Vec Ideal S128x1 .f32) (x5 : Vec Ideal S1x1 .f32)
    (nf : S100000x64.Idx → EReal) (W5 : S64x128.Idx → EReal) (B5 : S128.Idx → EReal) (W6 : S128x2.Idx → EReal)
    (B6 : S2.Idx → EReal) (v0 v1 : BitVec 32) (p : Fin 4000)
    (h0 : ∀ k, x0 (ix2 p k) = nf (ix2 (rowOf v0) k)) (h1 : ∀ k, x1 (ix2 p k) = nf (ix2 (rowOf v1) k))
    (h2 : ∀ k j, x2 (ix2 k j) = W5 (ix2 k j)) (h3 : ∀ j, x3 (ix2 (0 : Fin 1) j) = B5 (ix1 j))
    (h4 : ∀ j, x4 (ix2 j (0 : Fin 1)) = W6 (ix2 j (1 : Fin 2)) - W6 (ix2 j (0 : Fin 2)))
    (h5 : x5 (ix2 (0 : Fin 1) (0 : Fin 1)) = B6 (ix1 (1 : Fin 2)) - B6 (ix1 (0 : Fin 2))) (q : Fin 2) :
    sigmoidRow
        (hidden (fun k => x0 (ix2 p k)) (fun k => x1 (ix2 p k)) (fun k j => x2 (ix2 k j))
          (fun j => x3 (ix2 (0 : Fin 1) j)))
        (fun j => x4 (ix2 j (0 : Fin 1))) (x5 (ix2 (0 : Fin 1) (0 : Fin 1))) q
      = probsDiff nf W5 B5 W6 B6 v0 v1 q := by
  unfold probsDiff
  simp only [h0, h1, h2, h3, h4, h5]

/-! ## The blocks the kernel reads at point `t` -/

theorem iblk0_apply (c : Dev nD) (t : Fin cfg0.N) (p : Fin 4000) (k : Fin 64) :
    (iblk m c 0 t : Vec Ideal S4000x64 .f32) (ix2 p k)
      = (V m c main_v10 : S1000000x64.Idx → EReal) (ix2 (fusedRow t p) k) := by
  unfold iblk
  exact blk0_read c (V m c (Pipeline.arrRef spec0 0)) t p k

theorem iblk1_apply (c : Dev nD) (t : Fin cfg0.N) (p : Fin 4000) (k : Fin 64) :
    (iblk m c 1 t : Vec Ideal S4000x64 .f32) (ix2 p k)
      = (V m c main_v11 : S1000000x64.Idx → EReal) (ix2 (fusedRow t p) k) := by
  unfold iblk
  exact blk1_read c (V m c (Pipeline.arrRef spec0 1)) t p k

theorem iblk2_apply (c : Dev nD) (t : Fin cfg0.N) (k : Fin 64) (j : Fin 128) :
    (iblk m c 2 t : Vec Ideal S64x128 .f32) (ix2 k j) = (V m c main_arg4 : S64x128.Idx → EReal) (ix2 k j) := by
  unfold iblk
  exact blk2_read c (V m c (Pipeline.arrRef spec0 2)) t k j

theorem iblk3_apply (c : Dev nD) (t : Fin cfg0.N) (j : Fin 128) :
    (iblk m c 3 t : Vec Ideal S1x128 .f32) (ix2 (0 : Fin 1) j)
      = (V m c main_v12 : S1x128.Idx → EReal) (ix2 (0 : Fin 1) j) := by
  unfold iblk
  exact blk3_read c (V m c (Pipeline.arrRef spec0 3)) t j

theorem iblk4_apply (c : Dev nD) (t : Fin cfg0.N) (j : Fin 128) :
    (iblk m c 4 t : Vec Ideal S128x1 .f32) (ix2 j (0 : Fin 1))
      = (V m c main_v15 : S128x1.Idx → EReal) (ix2 j (0 : Fin 1)) := by
  unfold iblk
  exact blk4_read c (V m c (Pipeline.arrRef spec0 4)) t j

theorem iblk5_apply (c : Dev nD) (t : Fin cfg0.N) :
    (iblk m c 5 t : Vec Ideal S1x1 .f32) (ix2 (0 : Fin 1) (0 : Fin 1))
      = (V m c main_v21 : S1x1.Idx → EReal) (ix2 (0 : Fin 1) (0 : Fin 1)) := by
  unfold iblk
  exact blk5_read c (V m c (Pipeline.arrRef spec0 5)) t

/-! ## The output array -/

/-- The whole [1000000, 2] output: row `r` holds the logistic form of the probabilities of fused row `r`'s two ids. -/
def fused (c : Dev nD) : S1000000x2.Idx → EReal := fun i =>
  probsDiff (nodes m c) (w5 m c) (b5 m c) (w6 m c) (b6 m c)
    (fusedId (cliquesR m c) (cliquesS m c) 0 ⟨(i 0).val, idx2_lt0 i⟩)
    (fusedId (cliquesR m c) (cliquesS m c) 1 ⟨(i 0).val, idx2_lt0 i⟩) ⟨(i 1).val, idx2_lt1 i⟩

theorem fused_apply (c : Dev nD) (r : Fin 1000000) (q : Fin 2) :
    fused m c (ix2 r q) = probsDiff (nodes m c) (w5 m c) (b5 m c) (w6 m c) (b6 m c)
      (fusedId (cliquesR m c) (cliquesS m c) 0 r) (fusedId (cliquesR m c) (cliquesS m c) 1 r) q := rfl

/-- Every fused row's two ids pass the range tests of the lookup. -/
def IdsOK (c : Dev nD) : Prop :=
  (∀ t : Fin 1000000, MaskOK (fusedId (cliquesR m c) (cliquesS m c) 0 t))
    ∧ ∀ t : Fin 1000000, MaskOK (fusedId (cliquesR m c) (cliquesS m c) 1 t)

/-- What point `t` leaves in the output's staging buffer, at `(p, q)`, is the output function at row `4000 t + p`. -/
theorem body_at (c : Dev nD) (hok : IdsOK m c) (t : Fin cfg0.N) (p : Fin 4000) (q : Fin 2) :
    (out0_6 (iblk m c 0 t) (iblk m c 1 t) (iblk m c 2 t) (iblk m c 3 t) (iblk m c 4 t) (iblk m c 5 t)
        : S4000x2.Idx → EReal) (ix2 p q)
      = fused m c (ix2 (fusedRow t p) q) :=
  (out_apply (iblk m c 0 t) (iblk m c 1 t) (iblk m c 2 t) (iblk m c 3 t) (iblk m c 4 t) (iblk m c 5 t) p q).trans
    (rows_eq (iblk m c 0 t) (iblk m c 1 t) (iblk m c 2 t) (iblk m c 3 t) (iblk m c 4 t) (iblk m c 5 t)
      (nodes m c) (w5 m c) (b5 m c) (w6 m c) (b6 m c)
      (fusedId (cliquesR m c) (cliquesS m c) 0 (fusedRow t p)) (fusedId (cliquesR m c) (cliquesS m c) 1 (fusedRow t p)) p
      (fun k => (iblk0_apply m c t p k).trans (xi_apply m c hok.1 (fusedRow t p) k))
      (fun k => (iblk1_apply m c t p k).trans (xj_apply m c hok.2 (fusedRow t p) k))
      (fun k j => (iblk2_apply m c t k j).trans (w5_apply m c k j))
      (fun j => (iblk3_apply m c t j).trans (b5row_apply m c j))
      (fun j => (iblk4_apply m c t j).trans (dW_apply m c j))
      ((iblk5_apply m c t).trans (db_apply m c)) q)

/-- What point `t` writes back is block `t` of the output function. -/
theorem flushed_eq (c : Dev nD) (hok : IdsOK m c) (t : Fin cfg0.N) :
    (dats m 0 c).flushed 6 t = ((cfg0.win 6).blk t).view.read (Elt Ideal) (fused m c) := by
  show (cfg0.win 6).cut (grid0.coords t) ((dats m 0 c).after 6 t) = _
  rewrite [after0_6]
  exact out_block_eq c (fused m c) t _ (fun p q => body_at m c hok t p q)

/-- An index of the output is in point `t`'s block iff each coordinate is in the block's range on its axis. -/
theorem mem_blk (t : Fin cfg0.N) (i : S1000000x2.Idx) :
    i ∈ ((cfg0.win 6).blk t).view.set ↔ ∀ a : Fin 2, win0_6.index t a * S4000x2.size a ≤ (i a).val
      ∧ (i a).val < win0_6.index t a * S4000x2.size a + S4000x2.size a := by
  show i ∈ ((View.whole main_v22).slice (win0_6.rect t)).set ↔ _
  rw [View.set_slice_whole, Rect.mem_set_unit]
  exact Iff.rfl

/-- The 250 blocks tile the output: row `r` is in the block of point `r / 4000`. -/
theorem cover (i : S1000000x2.Idx) :
    ∃ t : Fin cfg0.N, (cfg0.win 6).flush t = true ∧ i ∈ ((cfg0.win 6).blk t).view.set := by
  have hi0 : (i 0).val < 1000000 := idx2_lt0 i
  have hi1 : (i 1).val < 2 := idx2_lt1 i
  have hN' := hN
  refine ⟨⟨(i 0).val / 4000, by omega⟩, flush0_6 _, ?_⟩
  rw [mem_blk]
  obtain ⟨-, -, -, -, -, -, -, -, -, -, -, -, e0, e1⟩ := idx_facts ⟨(i 0).val / 4000, by omega⟩
  intro a
  match a with
  | ⟨0, _⟩ =>
    show win0_6.index ⟨(i 0).val / 4000, _⟩ 0 * 4000 ≤ (i 0).val ∧ (i 0).val < win0_6.index ⟨(i 0).val / 4000, _⟩ 0 * 4000 + 4000
    rw [e0]
    show (i 0).val / 4000 * 4000 ≤ (i 0).val ∧ (i 0).val < (i 0).val / 4000 * 4000 + 4000
    omega
  | ⟨1, _⟩ =>
    show win0_6.index ⟨(i 0).val / 4000, _⟩ 1 * 2 ≤ (i 1).val ∧ (i 1).val < win0_6.index ⟨(i 0).val / 4000, _⟩ 1 * 2 + 2
    rw [e1]
    omega

/-- The output array after the run is the output function. -/
theorem final (c : Dev nD) (hok : IdsOK m c) : (dats m 0 c).arrAt 6 cfg0.N = fused m c :=
  (dats m 0 c).arrAt_eq_of_cover 6 (fused m c) (fun t _ => flushed_eq m c hok t) cover

/-! ## The two results -/

/-- In the first half a fused row's id is the first clique array's. -/
theorem fusedId_lo (cr cs : S500000x4.Idx → BitVec 32) (a : Fin 4) (r : Fin 500000) :
    fusedId cr cs a (⟨r.val, by have := r.isLt; omega⟩ : Fin 1000000) = cr (ix2 r a) := by
  unfold fusedId
  exact dif_pos r.isLt

/-- In the second half it is the second clique array's, 500000 rows earlier. -/
theorem fusedId_hi (cr cs : S500000x4.Idx → BitVec 32) (a : Fin 4) (r : Fin 500000) :
    fusedId cr cs a (⟨500000 + r.val, by have := r.isLt; omega⟩ : Fin 1000000) = cs (ix2 r a) := by
  unfold fusedId
  rw [dif_neg (show ¬ (500000 + r.val < 500000) by omega)]
  exact congrArg (fun x : Fin 500000 => cs (ix2 x a)) (Fin.ext (show 500000 + r.val - 500000 = r.val by omega))

/-- The first result: row `r` holds the logistic form of the probabilities of row `r` of the first clique array. -/
def res0 (c : Dev nD) : S500000x2.Idx → EReal := fun i =>
  probsDiff (nodes m c) (w5 m c) (b5 m c) (w6 m c) (b6 m c)
    (cliquesR m c (ix2 (⟨(i 0).val, idx2_lt0 i⟩ : Fin 500000) (0 : Fin 4)))
    (cliquesR m c (ix2 (⟨(i 0).val, idx2_lt0 i⟩ : Fin 500000) (1 : Fin 4))) ⟨(i 1).val, idx2_lt1 i⟩

/-- The second result: entry `(r, 0, q)` is that of row `r` of the second clique array. -/
def res1 (c : Dev nD) : S500000x1x2.Idx → EReal := fun i =>
  probsDiff (nodes m c) (w5 m c) (b5 m c) (w6 m c) (b6 m c)
    (cliquesS m c (ix2 (⟨(i 0).val, (i 0).isLt⟩ : Fin 500000) (0 : Fin 4)))
    (cliquesS m c (ix2 (⟨(i 0).val, (i 0).isLt⟩ : Fin 500000) (1 : Fin 4))) ⟨(i 2).val, (i 2).isLt⟩

theorem res0_apply (c : Dev nD) (r : Fin 500000) (q : Fin 2) :
    res0 m c (ix2 r q) = probsDiff (nodes m c) (w5 m c) (b5 m c) (w6 m c) (b6 m c)
      (cliquesR m c (ix2 r (0 : Fin 4))) (cliquesR m c (ix2 r (1 : Fin 4))) q := rfl

theorem res1_apply (c : Dev nD) (r : Fin 500000) (q : Fin 2) :
    res1 m c (ix3 r (0 : Fin 1) q) = probsDiff (nodes m c) (w5 m c) (b5 m c) (w6 m c) (b6 m c)
      (cliquesS m c (ix2 r (0 : Fin 4))) (cliquesS m c (ix2 r (1 : Fin 4))) q := rfl

/-- After the region the output's buffer holds the output function. -/
theorem arr6 (c : Dev nD) (hok : IdsOK m c) :
    (Pipeline.withArrays (cfgs 0).spec c (V0 m c) (fun w => (dats m 0 c).arrAt w (cfgs 0).N) (Proc.tc.devRef main_v22)
        : S1000000x2.Idx → EReal) = fused m c :=
  (Pipeline.withArrays_arr spec0 launch0.win.arr_inj c _ _ 6).trans (final m c hok)

/-- Rows `0 … 499999` of the output function are the first result. -/
theorem lo_rows (c : Dev nD) :
    extractStridedSlice S500000x2 ![0, 0] (fused m c) slices_S1000000x2_S500000x2_0_0 = res0 m c := by
  funext i
  obtain ⟨r, q, rfl⟩ : ∃ (r : Fin 500000) (q : Fin 2), i = ix2 r q := ⟨i 0, i 1, eq_ix2 i⟩
  refine (extractStridedSlice_apply _ (fused m c) slices_S1000000x2_S500000x2_0_0 (ix2 r q)
    (ix2 (⟨r.val, by have := r.isLt; omega⟩ : Fin 1000000) q) (fun a => ?_)).trans ?_
  · match a with
    | ⟨0, _⟩ => show r.val = 0 + r.val; omega
    | ⟨1, _⟩ => show q.val = 0 + q.val; omega
  · rw [fused_apply, res0_apply, fusedId_lo, fusedId_lo]

/-- Rows `500000 … 999999` of the output function are the rows of the second result. -/
theorem hi_rows (c : Dev nD) (r : Fin 500000) (q : Fin 2) :
    extractStridedSlice S500000x2 ![500000, 0] (fused m c) slices_S1000000x2_S500000x2_500000_0 (ix2 r q)
      = res1 m c (ix3 r (0 : Fin 1) q) := by
  refine (extractStridedSlice_apply _ (fused m c) slices_S1000000x2_S500000x2_500000_0 (ix2 r q)
    (ix2 (⟨500000 + r.val, by have := r.isLt; omega⟩ : Fin 1000000) q) (fun a => ?_)).trans ?_
  · match a with
    | ⟨0, _⟩ => show 500000 + r.val = 500000 + r.val; rfl
    | ⟨1, _⟩ => show q.val = 0 + q.val; omega
  · rw [fused_apply, res1_apply, fusedId_hi, fusedId_hi]

/-- The first result buffer after the host operations that follow the region. -/
theorem tail_v23 (c : Dev nD) (hok : IdsOK m c) :
    (Pipeline.afterTail₀ cfgs (dats m) 0 (V0 m) [hostOps1] c main_v23 : S500000x2.Idx → EReal) = res0 m c := by
  unfold Pipeline.afterTail₀
  show StableHlo.after hostOps1 _ (Proc.devRef .tc main_v23) = _
  after_results
  rewrite [arr6 m c hok]
  exact lo_rows m c

/-- The second result buffer after them. -/
theorem tail_v25 (c : Dev nD) (hok : IdsOK m c) :
    (Pipeline.afterTail₀ cfgs (dats m) 0 (V0 m) [hostOps1] c main_v25 : S500000x1x2.Idx → EReal) = res1 m c := by
  unfold Pipeline.afterTail₀
  show StableHlo.after hostOps1 _ (Proc.devRef .tc main_v25) = _
  after_results
  rewrite [arr6 m c hok]
  funext i
  obtain ⟨r, z, q, rfl⟩ : ∃ (r : Fin 500000) (z : Fin 1) (q : Fin 2), i = ix3 r z q := ⟨i 0, i 1, i 2, eq_ix3 i⟩
  obtain rfl : z = 0 := Subsingleton.elim _ _
  refine (broadcastInDim_apply _ bcast_S500000x2_S500000x1x2_0_2 _ (ix3 r (0 : Fin 1) q) (ix2 r q) (fun a => ?_)).trans
    (hi_rows m c r q)
  match a with
  | ⟨0, _⟩ => show r.val = if (500000 : Nat) = 1 then 0 else r.val; rw [if_neg (by decide)]
  | ⟨1, _⟩ => show q.val = if (2 : Nat) = 1 then 0 else q.val; rw [if_neg (by decide)]

/-! ## The run -/

/-- Every weakly fair execution of the kernel's program terminates with the two result buffers at `res0`, `res1` and
    the argument arrays unchanged, when every id passes the lookup's range tests. -/
theorem run (hok : ∀ c, IdsOK m c) :
    θ_run defs (onTc (τ := τ) (main (F := Ideal))) ⟨m, fun _ => 0, ρ⟩ (fun r => ∀ c : Dev nD,
      r.2.mem ((c.tc : Thread nD τ).loc main_v23) = res0 m c
      ∧ r.2.mem ((c.tc : Thread nD τ).loc main_v25) = res1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨((h c).2 main_v23 (Pipeline.mem_restRefs_of main_v23 (by decide) (by decide))).trans (tail_v23 m c (hok c)),
      ((h c).2 main_v25 (Pipeline.mem_restRefs_of main_v25 (by decide) (by decide))).trans (tail_v25 m c (hok c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 2).trans (((dats m 0 c).arrAt_in 2 rfl _).trans ((A_eq m c 2).trans (V_main_arg4 m c))),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩)
    (run_main m ρ)

end Cert.KernelIdeal.Out

end
-- ==== Proof.RefRead.lean ====
/-
  The reference's two results read at an index.
  For each clique array the reference gathers the table rows of ids 0 and 1 (each id normalised, the row clamped
  into the table), multiplies them entry by entry, applies the first layer and the maximum with zero, forms the two
  logits, and takes their softmax shifted by the larger logit. Row `r`, column `c` of the first result is therefore
  `probs` of row `r`'s two ids in the first clique array; the second result carries an extra axis of extent one and
  reads the second clique array.
-/
import proofs.«401710_j41463614276026_3_alg».proof.Proof.Gen.ReferenceIdeal.Run
import proofs.«401710_j41463614276026_3_alg».proof.Proof.Gen.ReferenceIdeal.Read
import proofs.«401710_j41463614276026_3_alg».proof.Proof.Spec
import proofs.«401710_j41463614276026_3_alg».proof.Proof.LibIndex
import Idealize.ShloMosaic.PureOps.Ideal.Laws
import Idealize.ShloMosaic.Lib.ValueIdx
import Idealize.ShloMosaic.Lib.Pipeline.Value
import Idealize.ShloMosaic.Lib.ValueLayout

noncomputable section

namespace Cert.RefRead

open Cert.ReferenceIdeal Cert.ReferenceIdeal.Gen Cert.ReferenceIdeal.Read Cert.EdgeProb
open Idealize.ShloMosaic Idealize.ShloMosaic.TcCoe Idealize.ShloMosaic.ValueIdx

/-! ## Small facts both results use -/

/-- The bit pattern of minus infinity is the bottom element of the extended reals. -/
private theorem ofBits_negInf : Ideal.ofBits .f32 0xFF800000#32 = (⊥ : EReal) := by
  simp [Ideal.ofBits, Ideal.ieee]

/-- A maximum folded over two entries, starting from `b`, is `max (g 0) (max (g 1) b)`. -/
private theorem fold_max_fin2 (b : EReal) (g : Fin 2 → EReal) :
    (Finset.univ : Finset (Fin 2)).fold max b g = max (g 0) (max (g 1) b) := by
  rw [show (Finset.univ : Finset (Fin 2)) = {0, 1} from rfl, Finset.fold_insert (by decide), Finset.fold_singleton]

/-- Row `r` of a reduction over the two columns, with column `k` put back, is position `(r, k)`. -/
private theorem lift_row (h : S500000x2.Reduces [1] S500000) (r : Fin 500000) (k : Fin (S500000x2.size 1)) :
    h.lift (ix1 r) k = ix2 r (⟨k.val, k.isLt⟩ : Fin 2) := by
  funext c; apply Fin.ext
  fin_cases c <;> rfl

/-! ## The first result, stage by stage at row `r` -/

section First
variable (x1 : (⟨S500000x4, .i32⟩ : BufTy).Contents (Elt Ideal))
    (x3 : (⟨S100000x64, .f32⟩ : BufTy).Contents (Elt Ideal)) (x4 : (⟨S64x128, .f32⟩ : BufTy).Contents (Elt Ideal))
    (x5 : (⟨S128, .f32⟩ : BufTy).Contents (Elt Ideal)) (x6 : (⟨S128x2, .f32⟩ : BufTy).Contents (Elt Ideal))
    (x7 : (⟨S2, .f32⟩ : BufTy).Contents (Elt Ideal))

/-- The start index of row `r` for id 0: the entry in column 0 of the clique row, normalised. -/
private theorem v7_at (r : Fin 500000) :
    val_main_v7 (F := Ideal) x1 (ix2 r (0 : Fin 1)) = wrapIdx (x1 (ix2 r (0 : Fin 4))) := by
  rw [val_main_v7_apply, val_main_v6_apply, val_main_v3_apply, val_main_v5_apply, val_main_v1_apply,
    val_main_v0_apply, val_main_v2_apply, val_main_v4_apply, val_main_c_apply, val_main_c_0_apply]
  -- the column slice, flattened and given back its unit axis, reads position (r, 0) of the clique array
  have e : idx_main_v0 (idx_main_v1 (idx_main_v7 (ix2 r (0 : Fin 1)))) = ix2 r (0 : Fin 4) := by
    funext a; refine Fin.ext ?_
    match a with
    | ⟨0, _⟩ => exact Nat.div_one _
    | ⟨1, _⟩ => rfl
  rw [e]
  rfl

/-- The first gathered row at `(r, k)`: the table at the row of id 0, column `k`. -/
private theorem v8_at (r : Fin 500000) (k : Fin 64) :
    val_main_v8 (F := Ideal) x1 x3 (ix2 r k) = x3 (ix2 (rowOf (x1 (ix2 r (0 : Fin 4)))) k) := by
  unfold val_main_v8
  refine (Cert.LibIndex.rowGather_apply (N := 100000) (T := 500000) (C := 64) (by decide)
    gather_S100000x64_S500000x1_S500000x64_1_0_n_n_0_1_164_wf x3 (val_main_v7 (F := Ideal) x1) r k).trans ?_
  refine congrArg (fun row : Fin 100000 => x3 (ix2 row k)) (Fin.ext ?_)
  show min (val_main_v7 (F := Ideal) x1 (ix2 r (0 : Fin 1))).toInt.toNat (100000 - 1) = _
  rw [v7_at]
  rfl

/-- The start index of row `r` for id 1: the entry in column 1 of the clique row, normalised. -/
private theorem v16_at (r : Fin 500000) :
    val_main_v16 (F := Ideal) x1 (ix2 r (0 : Fin 1)) = wrapIdx (x1 (ix2 r (1 : Fin 4))) := by
  rw [val_main_v16_apply, val_main_v15_apply, val_main_v12_apply, val_main_v14_apply, val_main_v10_apply,
    val_main_v9_apply, val_main_v11_apply, val_main_v13_apply, val_main_c_1_apply, val_main_c_2_apply]
  -- the column slice, flattened and given back its unit axis, reads position (r, 1) of the clique array
  have e : idx_main_v9 (idx_main_v10 (idx_main_v16 (ix2 r (0 : Fin 1)))) = ix2 r (1 : Fin 4) := by
    funext a; refine Fin.ext ?_
    match a with
    | ⟨0, _⟩ => exact Nat.div_one _
    | ⟨1, _⟩ => rfl
  rw [e]
  rfl

/-- The second gathered row at `(r, k)`: the table at the row of id 1, column `k`. -/
private theorem v17_at (r : Fin 500000) (k : Fin 64) :
    val_main_v17 (F := Ideal) x1 x3 (ix2 r k) = x3 (ix2 (rowOf (x1 (ix2 r (1 : Fin 4)))) k) := by
  unfold val_main_v17
  refine (Cert.LibIndex.rowGather_apply (N := 100000) (T := 500000) (C := 64) (by decide)
    gather_S100000x64_S500000x1_S500000x64_1_0_n_n_0_1_164_wf x3 (val_main_v16 (F := Ideal) x1) r k).trans ?_
  refine congrArg (fun row : Fin 100000 => x3 (ix2 row k)) (Fin.ext ?_)
  show min (val_main_v16 (F := Ideal) x1 (ix2 r (0 : Fin 1))).toInt.toNat (100000 - 1) = _
  rw [v16_at]
  rfl

/-- The hidden layer at `(r, j)`: hidden unit `j` of the two gathered rows. -/
private theorem v23_at (r : Fin 500000) (j : Fin 128) :
    val_main_v23 (F := Ideal) x1 x3 x4 x5 (ix2 r j)
      = hidden (fun k => x3 (ix2 (rowOf (x1 (ix2 r (0 : Fin 4)))) k)) (fun k => x3 (ix2 (rowOf (x1 (ix2 r (1 : Fin 4)))) k))
          (fun k j => x4 (ix2 k j)) (fun j => x5 (ix1 j)) j := by
  rw [val_main_v23_apply, val_main_v22_apply, val_main_v19_apply, val_main_v21_apply, val_main_v20_apply,
    val_main_call0_v0_apply, val_main_call0_cst_apply]
  -- the bias, broadcast over the rows, is read at `j`
  have e5 : idx_main_v20 (idx_main_v21 (ix2 r j)) = ix1 j := by
    funext a; match a with | ⟨0, _⟩ => rfl
  -- term `k` of the contraction: the product of the two gathered entries times the weight at `(k, j)`
  have es : ∀ k : Fin 64, val_main_v18 (F := Ideal) x1 x3 (lidx_main_v19 (ix2 r j) k) * x4 (ridx_main_v19 (ix2 r j) k)
      = x3 (ix2 (rowOf (x1 (ix2 r (0 : Fin 4)))) k) * x3 (ix2 (rowOf (x1 (ix2 r (1 : Fin 4)))) k) * x4 (ix2 k j) := by
    intro k
    have el : lidx_main_v19 (ix2 r j) k = ix2 r k := by
      funext a; match a with | ⟨0, _⟩ => rfl | ⟨1, _⟩ => rfl
    have er : ridx_main_v19 (ix2 r j) k = ix2 k j := by
      funext a; match a with | ⟨0, _⟩ => rfl | ⟨1, _⟩ => rfl
    rw [el, er, val_main_v18_apply, v8_at, v17_at]
    rfl
  rw [e5, Finset.sum_congr rfl (fun k _ => es k)]
  show max (_ + _) (Ideal.ofBits .f32 0x00000000#32) = _
  rw [Ideal.ofBits_zero_f32]
  rfl

/-- The logits at `(r, a)`: the hidden units against column `a` of the second layer, plus its bias. -/
private theorem v27_at (r : Fin 500000) (a : Fin 2) :
    val_main_v27 (F := Ideal) x1 x3 x4 x5 x6 x7 (ix2 r a)
      = (∑ j : Fin 128, hidden (fun k => x3 (ix2 (rowOf (x1 (ix2 r (0 : Fin 4)))) k))
            (fun k => x3 (ix2 (rowOf (x1 (ix2 r (1 : Fin 4)))) k)) (fun k j => x4 (ix2 k j)) (fun j => x5 (ix1 j)) j
          * x6 (ix2 j a)) + x7 (ix1 a) := by
  rw [val_main_v27_apply, val_main_v24_apply, val_main_v26_apply, val_main_v25_apply]
  -- the bias, broadcast over the rows, is read at `a`
  have e7 : idx_main_v25 (idx_main_v26 (ix2 r a)) = ix1 a := by
    funext b; match b with | ⟨0, _⟩ => rfl
  -- term `j` of the contraction: hidden unit `j` times the weight at `(j, a)`
  have es : ∀ j : Fin 128, val_main_v23 (F := Ideal) x1 x3 x4 x5 (lidx_main_v24 (ix2 r a) j) * x6 (ridx_main_v24 (ix2 r a) j)
      = hidden (fun k => x3 (ix2 (rowOf (x1 (ix2 r (0 : Fin 4)))) k))
            (fun k => x3 (ix2 (rowOf (x1 (ix2 r (1 : Fin 4)))) k)) (fun k j => x4 (ix2 k j)) (fun j => x5 (ix1 j)) j
          * x6 (ix2 j a) := by
    intro j
    have el : lidx_main_v24 (ix2 r a) j = ix2 r j := by
      funext b; match b with | ⟨0, _⟩ => rfl | ⟨1, _⟩ => rfl
    have er : ridx_main_v24 (ix2 r a) j = ix2 j a := by
      funext b; match b with | ⟨0, _⟩ => rfl | ⟨1, _⟩ => rfl
    rw [el, er, v23_at]
  rw [e7, Finset.sum_congr rfl (fun j _ => es j)]
  rfl

/-- The maximum over the two columns, started from minus infinity, is the larger logit of the row. -/
private theorem v28_at (r : Fin 500000) :
    val_main_v28 (F := Ideal) x1 x3 x4 x5 x6 x7 (ix1 r)
      = max (val_main_v27 (F := Ideal) x1 x3 x4 x5 x6 x7 (ix2 r (0 : Fin 2)))
          (val_main_v27 (F := Ideal) x1 x3 x4 x5 x6 x7 (ix2 r (1 : Fin 2))) := by
  unfold val_main_v28
  generalize val_main_v27 (F := Ideal) x1 x3 x4 x5 x6 x7 = y
  have h : S500000x2.Reduces [1] S500000 := by decide
  -- a maximum is commutative and associative, so the reduction is the fold over the row's two columns
  refine (Host.reduce_eq_fold_single (α := Ideal .f32) FloatOps.maximumf y _ reducesTo_S500000x2_S500000_d1 h h_S_
    (ix1 r)).trans ?_
  have hf : (y ∘ h.lift (ix1 r)) = fun k : Fin 2 => y (ix2 r k) := funext fun k => congrArg y (lift_row h r k)
  have e := fold_max_fin2 (Ideal.ofBits .f32 0xFF800000#32) (fun k : Fin 2 => y (ix2 r k))
  -- the starting value is the bottom element, which a maximum absorbs
  rw [ofBits_negInf, max_eq_left bot_le] at e
  refine Eq.trans ?_ e
  rw [← ofBits_negInf]
  exact congrArg (fun f => Finset.fold max (Ideal.ofBits .f32 0xFF800000#32) f (Finset.univ : Finset (Fin 2))) hf

/-- The shift, broadcast back over the two columns: the larger logit of the row. -/
private theorem v32_at (r : Fin 500000) (a : Fin 2) :
    val_main_v32 (F := Ideal) x1 x3 x4 x5 x6 x7 (ix2 r a)
      = max (val_main_v27 (F := Ideal) x1 x3 x4 x5 x6 x7 (ix2 r (0 : Fin 2)))
          (val_main_v27 (F := Ideal) x1 x3 x4 x5 x6 x7 (ix2 r (1 : Fin 2))) := by
  rw [val_main_v32_apply, val_main_v31_apply, val_main_v30_apply, val_main_v29_apply, val_main_cst_3_apply]
  have e : idx_main_v31 (idx_main_v32 (ix2 r a)) = ix1 r := by
    funext b; match b with | ⟨0, _⟩ => rfl
  rw [e, v28_at]
  -- the maximum with minus infinity changes nothing
  show max (Ideal.ofBits .f32 0xFF800000#32) _ = _
  rw [ofBits_negInf, max_eq_right bot_le]

/-- The shifted exponential at `(r, a)`: `exp` of logit `a` minus the larger logit. -/
private theorem v34_at (r : Fin 500000) (a : Fin 2) :
    val_main_v34 (F := Ideal) x1 x3 x4 x5 x6 x7 (ix2 r a)
      = Ideal.exp (val_main_v27 (F := Ideal) x1 x3 x4 x5 x6 x7 (ix2 r a)
          - max (val_main_v27 (F := Ideal) x1 x3 x4 x5 x6 x7 (ix2 r (0 : Fin 2)))
              (val_main_v27 (F := Ideal) x1 x3 x4 x5 x6 x7 (ix2 r (1 : Fin 2)))) := by
  rw [val_main_v34_apply, val_main_v33_apply, v32_at]
  rfl

/-- The normaliser, broadcast back over the two columns: the sum of the row's two shifted exponentials. -/
private theorem v37_at (r : Fin 500000) (c : Fin 2) :
    val_main_v37 (F := Ideal) x1 x3 x4 x5 x6 x7 (ix2 r c)
      = val_main_v34 (F := Ideal) x1 x3 x4 x5 x6 x7 (ix2 r (0 : Fin 2))
          + val_main_v34 (F := Ideal) x1 x3 x4 x5 x6 x7 (ix2 r (1 : Fin 2)) := by
  rw [val_main_v37_apply, val_main_v36_apply, val_main_v35_apply, val_main_cst_4_apply, Fin.sum_univ_two]
  have e0 : idx_main_v35 (idx_main_v36 (idx_main_v37 (ix2 r c))) (0 : Fin 2) = ix2 r (0 : Fin 2) := by
    funext b; match b with | ⟨0, _⟩ => rfl | ⟨1, _⟩ => rfl
  have e1 : idx_main_v35 (idx_main_v36 (idx_main_v37 (ix2 r c))) (1 : Fin 2) = ix2 r (1 : Fin 2) := by
    funext b; match b with | ⟨0, _⟩ => rfl | ⟨1, _⟩ => rfl
  rw [e0, e1]
  -- the sum starts from zero
  show Ideal.ofBits .f32 0x00000000#32 + _ = _
  rw [Ideal.ofBits_zero_f32, zero_add]

end First

/-- The first result at `(r, c)`: the softmax form of row `r` of the first clique array. -/
theorem probsR_apply (x1 : (⟨S500000x4, .i32⟩ : BufTy).Contents (Elt Ideal))
    (x3 : (⟨S100000x64, .f32⟩ : BufTy).Contents (Elt Ideal)) (x4 : (⟨S64x128, .f32⟩ : BufTy).Contents (Elt Ideal))
    (x5 : (⟨S128, .f32⟩ : BufTy).Contents (Elt Ideal)) (x6 : (⟨S128x2, .f32⟩ : BufTy).Contents (Elt Ideal))
    (x7 : (⟨S2, .f32⟩ : BufTy).Contents (Elt Ideal)) (r : Fin 500000) (c : Fin 2) :
    (val_main_v38 (F := Ideal) x1 x3 x4 x5 x6 x7 : S500000x2.Idx → EReal) (ix2 r c)
      = probs x3 x4 x5 x6 x7 (x1 (ix2 r (0 : Fin 4))) (x1 (ix2 r (1 : Fin 4))) c := by
  -- the quotient of the shifted exponential at `c` by the sum of the two, each over the row's logits
  rw [val_main_v38_apply, v37_at, v34_at, v34_at, v34_at, v27_at, v27_at, v27_at]
  rfl

/-! ## The second result, stage by stage at row `r` -/

section Second
variable (x2 : (⟨S500000x4, .i32⟩ : BufTy).Contents (Elt Ideal))
    (x3 : (⟨S100000x64, .f32⟩ : BufTy).Contents (Elt Ideal)) (x4 : (⟨S64x128, .f32⟩ : BufTy).Contents (Elt Ideal))
    (x5 : (⟨S128, .f32⟩ : BufTy).Contents (Elt Ideal)) (x6 : (⟨S128x2, .f32⟩ : BufTy).Contents (Elt Ideal))
    (x7 : (⟨S2, .f32⟩ : BufTy).Contents (Elt Ideal))

/-- The start index of row `r` for id 0: the entry in column 0 of the clique row, normalised. -/
private theorem v46_at (r : Fin 500000) :
    val_main_v46 (F := Ideal) x2 (ix2 r (0 : Fin 1)) = wrapIdx (x2 (ix2 r (0 : Fin 4))) := by
  rw [val_main_v46_apply, val_main_v45_apply, val_main_v42_apply, val_main_v44_apply, val_main_v40_apply,
    val_main_v39_apply, val_main_v41_apply, val_main_v43_apply, val_main_c_5_apply, val_main_c_6_apply]
  -- the column slice, flattened and given back its unit axis, reads position (r, 0) of the clique array
  have e : idx_main_v39 (idx_main_v40 (idx_main_v46 (ix2 r (0 : Fin 1)))) = ix2 r (0 : Fin 4) := by
    funext a; refine Fin.ext ?_
    match a with
    | ⟨0, _⟩ => exact Nat.div_one _
    | ⟨1, _⟩ => rfl
  rw [e]
  rfl

/-- The first gathered row at `(r, k)`: the table at the row of id 0, column `k`. -/
private theorem v47_at (r : Fin 500000) (k : Fin 64) :
    val_main_v47 (F := Ideal) x2 x3 (ix2 r k) = x3 (ix2 (rowOf (x2 (ix2 r (0 : Fin 4)))) k) := by
  unfold val_main_v47
  refine (Cert.LibIndex.rowGather_apply (N := 100000) (T := 500000) (C := 64) (by decide)
    gather_S100000x64_S500000x1_S500000x64_1_0_n_n_0_1_164_wf x3 (val_main_v46 (F := Ideal) x2) r k).trans ?_
  refine congrArg (fun row : Fin 100000 => x3 (ix2 row k)) (Fin.ext ?_)
  show min (val_main_v46 (F := Ideal) x2 (ix2 r (0 : Fin 1))).toInt.toNat (100000 - 1) = _
  rw [v46_at]
  rfl

/-- The start index of row `r` for id 1: the entry in column 1 of the clique row, normalised. -/
private theorem v55_at (r : Fin 500000) :
    val_main_v55 (F := Ideal) x2 (ix2 r (0 : Fin 1)) = wrapIdx (x2 (ix2 r (1 : Fin 4))) := by
  rw [val_main_v55_apply, val_main_v54_apply, val_main_v51_apply, val_main_v53_apply, val_main_v49_apply,
    val_main_v48_apply, val_main_v50_apply, val_main_v52_apply, val_main_c_7_apply, val_main_c_8_apply]
  -- the column slice, flattened and given back its unit axis, reads position (r, 1) of the clique array
  have e : idx_main_v48 (idx_main_v49 (idx_main_v55 (ix2 r (0 : Fin 1)))) = ix2 r (1 : Fin 4) := by
    funext a; refine Fin.ext ?_
    match a with
    | ⟨0, _⟩ => exact Nat.div_one _
    | ⟨1, _⟩ => rfl
  rw [e]
  rfl

/-- The second gathered row at `(r, k)`: the table at the row of id 1, column `k`. -/
private theorem v56_at (r : Fin 500000) (k : Fin 64) :
    val_main_v56 (F := Ideal) x2 x3 (ix2 r k) = x3 (ix2 (rowOf (x2 (ix2 r (1 : Fin 4)))) k) := by
  unfold val_main_v56
  refine (Cert.LibIndex.rowGather_apply (N := 100000) (T := 500000) (C := 64) (by decide)
    gather_S100000x64_S500000x1_S500000x64_1_0_n_n_0_1_164_wf x3 (val_main_v55 (F := Ideal) x2) r k).trans ?_
  refine congrArg (fun row : Fin 100000 => x3 (ix2 row k)) (Fin.ext ?_)
  show min (val_main_v55 (F := Ideal) x2 (ix2 r (0 : Fin 1))).toInt.toNat (100000 - 1) = _
  rw [v55_at]
  rfl

/-- The hidden layer at `(r, j)`: hidden unit `j` of the two gathered rows. -/
private theorem v62_at (r : Fin 500000) (j : Fin 128) :
    val_main_v62 (F := Ideal) x2 x3 x4 x5 (ix2 r j)
      = hidden (fun k => x3 (ix2 (rowOf (x2 (ix2 r (0 : Fin 4)))) k)) (fun k => x3 (ix2 (rowOf (x2 (ix2 r (1 : Fin 4)))) k))
          (fun k j => x4 (ix2 k j)) (fun j => x5 (ix1 j)) j := by
  rw [val_main_v62_apply, val_main_v61_apply, val_main_v58_apply, val_main_v60_apply, val_main_v59_apply,
    val_main_call1_v0_apply, val_main_call1_cst_apply]
  -- the bias, broadcast over the rows, is read at `j`
  have e5 : idx_main_v59 (idx_main_v60 (ix2 r j)) = ix1 j := by
    funext a; match a with | ⟨0, _⟩ => rfl
  -- term `k` of the contraction: the product of the two gathered entries times the weight at `(k, j)`
  have es : ∀ k : Fin 64, val_main_v57 (F := Ideal) x2 x3 (lidx_main_v58 (ix2 r j) k) * x4 (ridx_main_v58 (ix2 r j) k)
      = x3 (ix2 (rowOf (x2 (ix2 r (0 : Fin 4)))) k) * x3 (ix2 (rowOf (x2 (ix2 r (1 : Fin 4)))) k) * x4 (ix2 k j) := by
    intro k
    have el : lidx_main_v58 (ix2 r j) k = ix2 r k := by
      funext a; match a with | ⟨0, _⟩ => rfl | ⟨1, _⟩ => rfl
    have er : ridx_main_v58 (ix2 r j) k = ix2 k j := by
      funext a; match a with | ⟨0, _⟩ => rfl | ⟨1, _⟩ => rfl
    rw [el, er, val_main_v57_apply, v47_at, v56_at]
    rfl
  rw [e5, Finset.sum_congr rfl (fun k _ => es k)]
  show max (_ + _) (Ideal.ofBits .f32 0x00000000#32) = _
  rw [Ideal.ofBits_zero_f32]
  rfl

/-- The logits at `(r, a)`: the hidden units against column `a` of the second layer, plus its bias. -/
private theorem v66_at (r : Fin 500000) (a : Fin 2) :
    val_main_v66 (F := Ideal) x2 x3 x4 x5 x6 x7 (ix2 r a)
      = (∑ j : Fin 128, hidden (fun k => x3 (ix2 (rowOf (x2 (ix2 r (0 : Fin 4)))) k))
            (fun k => x3 (ix2 (rowOf (x2 (ix2 r (1 : Fin 4)))) k)) (fun k j => x4 (ix2 k j)) (fun j => x5 (ix1 j)) j
          * x6 (ix2 j a)) + x7 (ix1 a) := by
  rw [val_main_v66_apply, val_main_v63_apply, val_main_v65_apply, val_main_v64_apply]
  -- the bias, broadcast over the rows, is read at `a`
  have e7 : idx_main_v64 (idx_main_v65 (ix2 r a)) = ix1 a := by
    funext b; match b with | ⟨0, _⟩ => rfl
  -- term `j` of the contraction: hidden unit `j` times the weight at `(j, a)`
  have es : ∀ j : Fin 128, val_main_v62 (F := Ideal) x2 x3 x4 x5 (lidx_main_v63 (ix2 r a) j) * x6 (ridx_main_v63 (ix2 r a) j)
      = hidden (fun k => x3 (ix2 (rowOf (x2 (ix2 r (0 : Fin 4)))) k))
            (fun k => x3 (ix2 (rowOf (x2 (ix2 r (1 : Fin 4)))) k)) (fun k j => x4 (ix2 k j)) (fun j => x5 (ix1 j)) j
          * x6 (ix2 j a) := by
    intro j
    have el : lidx_main_v63 (ix2 r a) j = ix2 r j := by
      funext b; match b with | ⟨0, _⟩ => rfl | ⟨1, _⟩ => rfl
    have er : ridx_main_v63 (ix2 r a) j = ix2 j a := by
      funext b; match b with | ⟨0, _⟩ => rfl | ⟨1, _⟩ => rfl
    rw [el, er, v62_at]
  rw [e7, Finset.sum_congr rfl (fun j _ => es j)]
  rfl

/-- The maximum over the two columns, started from minus infinity, is the larger logit of the row. -/
private theorem v67_at (r : Fin 500000) :
    val_main_v67 (F := Ideal) x2 x3 x4 x5 x6 x7 (ix1 r)
      = max (val_main_v66 (F := Ideal) x2 x3 x4 x5 x6 x7 (ix2 r (0 : Fin 2)))
          (val_main_v66 (F := Ideal) x2 x3 x4 x5 x6 x7 (ix2 r (1 : Fin 2))) := by
  unfold val_main_v67
  generalize val_main_v66 (F := Ideal) x2 x3 x4 x5 x6 x7 = y
  have h : S500000x2.Reduces [1] S500000 := by decide
  -- a maximum is commutative and associative, so the reduction is the fold over the row's two columns
  refine (Host.reduce_eq_fold_single (α := Ideal .f32) FloatOps.maximumf y _ reducesTo_S500000x2_S500000_d1 h h_S_
    (ix1 r)).trans ?_
  have hf : (y ∘ h.lift (ix1 r)) = fun k : Fin 2 => y (ix2 r k) := funext fun k => congrArg y (lift_row h r k)
  have e := fold_max_fin2 (Ideal.ofBits .f32 0xFF800000#32) (fun k : Fin 2 => y (ix2 r k))
  -- the starting value is the bottom element, which a maximum absorbs
  rw [ofBits_negInf, max_eq_left bot_le] at e
  refine Eq.trans ?_ e
  rw [← ofBits_negInf]
  exact congrArg (fun f => Finset.fold max (Ideal.ofBits .f32 0xFF800000#32) f (Finset.univ : Finset (Fin 2))) hf

/-- The shift, broadcast back over the two columns: the larger logit of the row. -/
private theorem v71_at (r : Fin 500000) (a : Fin 2) :
    val_main_v71 (F := Ideal) x2 x3 x4 x5 x6 x7 (ix2 r a)
      = max (val_main_v66 (F := Ideal) x2 x3 x4 x5 x6 x7 (ix2 r (0 : Fin 2)))
          (val_main_v66 (F := Ideal) x2 x3 x4 x5 x6 x7 (ix2 r (1 : Fin 2))) := by
  rw [val_main_v71_apply, val_main_v70_apply, val_main_v69_apply, val_main_v68_apply, val_main_cst_10_apply]
  have e : idx_main_v70 (idx_main_v71 (ix2 r a)) = ix1 r := by
    funext b; match b with | ⟨0, _⟩ => rfl
  rw [e, v67_at]
  -- the maximum with minus infinity changes nothing
  show max (Ideal.ofBits .f32 0xFF800000#32) _ = _
  rw [ofBits_negInf, max_eq_right bot_le]

/-- The shifted exponential at `(r, a)`: `exp` of logit `a` minus the larger logit. -/
private theorem v73_at (r : Fin 500000) (a : Fin 2) :
    val_main_v73 (F := Ideal) x2 x3 x4 x5 x6 x7 (ix2 r a)
      = Ideal.exp (val_main_v66 (F := Ideal) x2 x3 x4 x5 x6 x7 (ix2 r a)
          - max (val_main_v66 (F := Ideal) x2 x3 x4 x5 x6 x7 (ix2 r (0 : Fin 2)))
              (val_main_v66 (F := Ideal) x2 x3 x4 x5 x6 x7 (ix2 r (1 : Fin 2)))) := by
  rw [val_main_v73_apply, val_main_v72_apply, v71_at]
  rfl

/-- The normaliser, broadcast back over the two columns: the sum of the row's two shifted exponentials. -/
private theorem v76_at (r : Fin 500000) (c : Fin 2) :
    val_main_v76 (F := Ideal) x2 x3 x4 x5 x6 x7 (ix2 r c)
      = val_main_v73 (F := Ideal) x2 x3 x4 x5 x6 x7 (ix2 r (0 : Fin 2))
          + val_main_v73 (F := Ideal) x2 x3 x4 x5 x6 x7 (ix2 r (1 : Fin 2)) := by
  rw [val_main_v76_apply, val_main_v75_apply, val_main_v74_apply, val_main_cst_11_apply, Fin.sum_univ_two]
  have e0 : idx_main_v74 (idx_main_v75 (idx_main_v76 (ix2 r c))) (0 : Fin 2) = ix2 r (0 : Fin 2) := by
    funext b; match b with | ⟨0, _⟩ => rfl | ⟨1, _⟩ => rfl
  have e1 : idx_main_v74 (idx_main_v75 (idx_main_v76 (ix2 r c))) (1 : Fin 2) = ix2 r (1 : Fin 2) := by
    funext b; match b with | ⟨0, _⟩ => rfl | ⟨1, _⟩ => rfl
  rw [e0, e1]
  -- the sum starts from zero
  show Ideal.ofBits .f32 0x00000000#32 + _ = _
  rw [Ideal.ofBits_zero_f32, zero_add]

end Second

/-- The second result at `(r, 0, c)`: the softmax form of row `r` of the second clique array. -/
theorem probsS_apply (x2 : (⟨S500000x4, .i32⟩ : BufTy).Contents (Elt Ideal))
    (x3 : (⟨S100000x64, .f32⟩ : BufTy).Contents (Elt Ideal)) (x4 : (⟨S64x128, .f32⟩ : BufTy).Contents (Elt Ideal))
    (x5 : (⟨S128, .f32⟩ : BufTy).Contents (Elt Ideal)) (x6 : (⟨S128x2, .f32⟩ : BufTy).Contents (Elt Ideal))
    (x7 : (⟨S2, .f32⟩ : BufTy).Contents (Elt Ideal)) (r : Fin 500000) (c : Fin 2) :
    (val_main_v78 (F := Ideal) x2 x3 x4 x5 x6 x7 : S500000x1x2.Idx → EReal) (ix3 r (0 : Fin 1) c)
      = probs x3 x4 x5 x6 x7 (x2 (ix2 r (0 : Fin 4))) (x2 (ix2 r (1 : Fin 4))) c := by
  -- the extra axis of extent one is dropped: position `(r, 0, c)` reads the quotient at `(r, c)`
  have e : idx_main_v78 (ix3 r (0 : Fin 1) c) = ix2 r c := by
    funext a; match a with | ⟨0, _⟩ => rfl | ⟨1, _⟩ => rfl
  rw [val_main_v78_apply, e, val_main_v77_apply, v76_at, v73_at, v73_at, v73_at, v66_at, v66_at, v66_at]
  rfl

end Cert.RefRead

end
-- ==== Proof.lean ====
/-
  The edge-probability kernel against its reference, over the extended reals.
  Both programs read, for every row of two clique arrays, the node-table rows of the row's first two ids, multiply
  them entry by entry, apply a first layer with the maximum against zero, and turn the two logits of a second layer
  into probabilities. The reference takes the softmax of the two logits; the kernel lays the two clique arrays one
  after the other, looks the rows up once (filling the rows of ids outside the table with a NaN pattern), and computes
  the pair `(1 - p, p)` with `p` the logistic function of the logit difference, block by block of 4000 rows.
  Under the precondition every float entry is a real number and every id used is a row of the table, so no row is
  filled, the lookups agree, and the logistic form is the softmax (distributing the hidden units over the weight
  difference needs the entries real). The kernel's frames are the generated ones; the reference's frame is its run
  with the results dropped; no operation was rewritten in the idealization.
-/
import proofs.«401710_j41463614276026_3_alg».proof.Defs
import proofs.«401710_j41463614276026_3_alg».proof.Proof.Gen.Kernel
import proofs.«401710_j41463614276026_3_alg».proof.Proof.Gen.Kernel.Frame
import proofs.«401710_j41463614276026_3_alg».proof.Proof.Gen.KernelIdeal
import proofs.«401710_j41463614276026_3_alg».proof.Proof.Gen.KernelIdeal.Frame
import proofs.«401710_j41463614276026_3_alg».proof.Proof.Gen.ReferenceIdeal
import proofs.«401710_j41463614276026_3_alg».proof.Proof.Gen.ReferenceIdeal.Run
import proofs.«401710_j41463614276026_3_alg».proof.Proof.Gen.ReferenceIdeal.Read
import proofs.«401710_j41463614276026_3_alg».proof.Proof.Gen.Pre_finite_inputs
import proofs.«401710_j41463614276026_3_alg».proof.Proof.SpecAlg
import proofs.«401710_j41463614276026_3_alg».proof.Proof.PreFacts
import proofs.«401710_j41463614276026_3_alg».proof.Proof.KernelValue
import proofs.«401710_j41463614276026_3_alg».proof.Proof.RefRead
import Idealize.ShloMosaic.Adequacy
import Idealize.ShloMosaic.Init

noncomputable section

namespace Cert.Proof

open Idealize.ShloMosaic Idealize.ShloMosaic.TcCoe Idealize.SL.Sem Idealize.ShloMosaic.ValueIdx Cert.EdgeProb

/-- If ids `a` of every row of both clique arrays are rows of the table, every fused row's id `a` passes the
    lookup's range tests. -/
theorem maskOK_fused (cr cs : (⟨2, ![500000, 4]⟩ : Shape).Idx → BitVec 32) (a : Fin 4)
    (hr : ∀ r : Fin 500000, InRange (cr (ix2 r a))) (hs : ∀ r : Fin 500000, InRange (cs (ix2 r a)))
    (t : Fin 1000000) : MaskOK (fusedId cr cs a t) := by
  unfold fusedId
  split
  · exact maskOK_of_inRange _ (hr _)
  · exact maskOK_of_inRange _ (hs _)

theorem frame_k : Cert.frame_Kernel := fun m ρ _ => Cert.Kernel.Gen.frame m ρ

theorem frame_ki : Cert.frame_KernelIdeal := fun m ρ _ => Cert.KernelIdeal.Gen.frame m ρ

/-- The reference's run with its two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- From memories agreeing on the arguments both programs end with the same two results: the kernel's run leaves
    the logistic form of each row's probabilities, the reference's run their softmax form, and on real entries with
    ids in the table these are one function. -/
theorem algebraic : Cert.algebraic_KernelIdeal_ReferenceIdeal := by
  intro m ρ m' ρ' hpre hagree
  have hf := fun c => Cert.PreFacts.of_pre _ _ _ _ _ _ _ _ (hpre c)
  have hok : ∀ c, Cert.KernelIdeal.Out.IdsOK m c := fun c =>
    ⟨maskOK_fused _ _ 0 (fun r => ((hf c).2.2.2.2.2.1 r).1) (fun r => ((hf c).2.2.2.2.2.2 r).1),
      maskOK_fused _ _ 1 (fun r => ((hf c).2.2.2.2.2.1 r).2) (fun r => ((hf c).2.2.2.2.2.2 r).2)⟩
  refine ⟨fun c => Cert.KernelIdeal.Out.res0 m c, fun c => Cert.KernelIdeal.Out.res1 m c,
    Cert.KernelIdeal.Out.run m ρ hok, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨-, e1, -, e3, e4, e5, e6, e7⟩ := hagree c
    obtain ⟨f3, f4, f5, f6, f7, -, -⟩ := hf c
    rw [Cert.ReferenceIdeal.Read.val_main_v38_eq, e1, e3, e4, e5, e6, e7]
    funext i
    obtain ⟨r, q, rfl⟩ : ∃ (r : Fin 500000) (q : Fin 2), i = ix2 r q := ⟨i 0, i 1, eq_ix2 i⟩
    rw [Cert.RefRead.probsR_apply]
    exact ((Cert.KernelIdeal.Out.res0_apply m c r q).trans (probsDiff_eq_probs _ _ _ _ _ f3 f4 f5 f6 f7 _ _ q)).symm
  · obtain ⟨-, -, e2, e3, e4, e5, e6, e7⟩ := hagree c
    obtain ⟨f3, f4, f5, f6, f7, -, -⟩ := hf c
    rw [Cert.ReferenceIdeal.Read.val_main_v78_eq, e2, e3, e4, e5, e6, e7]
    funext i
    obtain ⟨r, z, q, rfl⟩ : ∃ (r : Fin 500000) (z : Fin 1) (q : Fin 2), i = ix3 r z q := ⟨i 0, i 1, i 2, eq_ix3 i⟩
    obtain rfl : z = 0 := Subsingleton.elim _ _
    rw [Cert.RefRead.probsS_apply]
    exact ((Cert.KernelIdeal.Out.res1_apply m c r q).trans (probsDiff_eq_probs _ _ _ _ _ f3 f4 f5 f6 f7 _ _ q)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
